-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000x128 : Shape := ⟨2, ![640000, 128]⟩
abbrev S2x640000 : Shape := ⟨2, ![2, 640000]⟩
abbrev S50000x1 : Shape := ⟨2, ![50000, 1]⟩
abbrev S128x128 : Shape := ⟨2, ![128, 128]⟩
abbrev S128 : Shape := ⟨1, ![128]⟩
abbrev S1x128x2 : Shape := ⟨3, ![1, 128, 2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S50000x1 : S_.BroadcastsInDim S50000x1 (![] : Fin 0 → Fin S50000x1.rank)
  reducesTo_S50000x1_S_d0_1 : S50000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128x2 : S_.BroadcastsInDim S1x128x2 (![] : Fin 0 → Fin S1x128x2.rank)
  reducesTo_S1x128x2_S_d0_1_2 : S1x128x2.ReducesTo [0, 1, 2] S_
  bcast_S_S2x640000 : S_.BroadcastsInDim S2x640000 (![] : Fin 0 → Fin S2x640000.rank)
  reducesTo_S2x640000_S_d0_1 : S2x640000.ReducesTo [0, 1] S_

variable [Facts]

def fn_part5 {F : FTy → Type} [FloatOps F] (main_arg2 : IVec S2x640000 32) (main_v83 : IVec S_ 1) (main_v84 : IVec S2x640000 32) : IVec S_ 1 :=
  let main_v85 : IVec S2x640000 1 := cmpi .sge main_arg2 main_v84
  let main_c_33 : IVec S_ 1 := constantI S_ 1 1#1
  let main_v86 : IVec S_ 1 := (fun x v => Host.reduce IntOp.andi x v reducesTo_S2x640000_S_d0_1 h_S_) main_v85 main_c_33
  let main_v87 : IVec S_ 1 := andi main_v83 main_v86
  let main_c_34 : IVec S_ 32 := constantI S_ 32 50000#32
  let main_v88 : IVec S2x640000 32 := broadcastInDim S2x640000 ![] bcast_S_S2x640000 main_c_34
  let main_v89 : IVec S2x640000 1 := cmpi .slt main_arg2 main_v88
  let main_c_35 : IVec S_ 1 := constantI S_ 1 1#1
  let main_v90 : IVec S_ 1 := (fun x v => Host.reduce IntOp.andi x v reducesTo_S2x640000_S_d0_1 h_S_) main_v89 main_c_35
  let main_v91 : IVec S_ 1 := andi main_v87 main_v90
  main_v91

def fn_part4 {F : FTy → Type} [FloatOps F] (main_arg2 : IVec S2x640000 32) (main_arg15 : FVec F S128 .f32) (main_arg16 : FVec F S128 .f32) (main_arg17 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_c_32 : IVec S_ 32 := constantI S_ 32 0#32
  let main_v84 : IVec S2x640000 32 := broadcastInDim S2x640000 ![] bcast_S_S2x640000 main_c_32
  fn_part5 (F := F) main_arg2 main_v83 main_v84

def fn_part3 {F : FTy → Type} [FloatOps F] (main_arg2 : IVec S2x640000 32) (main_arg12 : FVec F S128 .f32) (main_arg13 : FVec F S1x128x2 .f32) (main_arg14 : FVec F S128 .f32) (main_arg15 : FVec F S128 .f32) (main_arg16 : FVec F S128 .f32) (main_arg17 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S1x128x2 .f32 := Host.absf main_arg13
  let main_cst_22 : FVec F S_ .f32 := constant S_ .f32 0x7F800000#32
  let main_v60 : FVec F S1x128x2 .f32 := broadcastInDim S1x128x2 ![] bcast_S_S1x128x2 main_cst_22
  let main_v61 : IVec S1x128x2 1 := cmpf .olt main_v59 main_v60
  let main_c_23 : IVec S_ 1 := constantI S_ 1 1#1
  let main_v62 : IVec S_ 1 := (fun x v => Host.reduce IntOp.andi x v reducesTo_S1x128x2_S_d0_1_2 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg15 main_arg16 main_arg17 main_v63 main_v67

def fn_part2 {F : FTy → Type} [FloatOps F] (main_arg2 : IVec S2x640000 32) (main_arg8 : FVec F S128x128 .f32) (main_arg9 : FVec F S128x128 .f32) (main_arg10 : FVec F S128 .f32) (main_arg11 : FVec F S128x128 .f32) (main_arg12 : FVec F S128 .f32) (main_arg13 : FVec F S1x128x2 .f32) (main_arg14 : FVec F S128 .f32) (main_arg15 : FVec F S128 .f32) (main_arg16 : FVec F S128 .f32) (main_arg17 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg2 main_arg12 main_arg13 main_arg14 main_arg15 main_arg16 main_arg17 main_v48 main_v49 main_v50

def fn_part1 {F : FTy → Type} [FloatOps F] (main_arg2 : IVec S2x640000 32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) (main_arg13 : FVec F S1x128x2 .f32) (main_arg14 : FVec F S128 .f32) (main_arg15 : FVec F S128 .f32) (main_arg16 : FVec F S128 .f32) (main_arg17 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_v33

def fn {F : FTy → Type} [FloatOps F] (main_arg0 : FVec F S50000x128 .f32) (main_arg1 : FVec F S640000x128 .f32) (main_arg2 : IVec S2x640000 32) (main_arg3 : FVec F S50000x1 .f32) (main_arg4 : FVec F S128x128 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) (main_arg13 : FVec F S1x128x2 .f32) (main_arg14 : FVec F S128 .f32) (main_arg15 : FVec F S128 .f32) (main_arg16 : FVec F S128 .f32) (main_arg17 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S50000x1 .f32 := Host.absf main_arg3
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg5 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S640000x128 : Shape := ⟨2, ![640000, 128]⟩
abbrev S2x640000 : Shape := ⟨2, ![2, 640000]⟩
abbrev S50000x1 : Shape := ⟨2, ![50000, 1]⟩
abbrev S128x128 : Shape := ⟨2, ![128, 128]⟩
abbrev S128 : Shape := ⟨1, ![128]⟩
abbrev S1x128x2 : Shape := ⟨3, ![1, 128, 2]⟩
abbrev S1x640000 : Shape := ⟨2, ![1, 640000]⟩
abbrev S640000 : Shape := ⟨1, ![640000]⟩
abbrev S1x128 : Shape := ⟨2, ![1, 128]⟩
abbrev S2000x128 : Shape := ⟨2, ![2000, 128]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S5000x128 : Shape := ⟨2, ![5000, 128]⟩
abbrev S5000 : Shape := ⟨1, ![5000]⟩
abbrev S5000x1 : Shape := ⟨2, ![5000, 1]⟩
abbrev S1x128x1 : Shape := ⟨3, ![1, 128, 1]⟩
abbrev S2000x1 : Shape := ⟨2, ![2000, 1]⟩
abbrev S2000 : Shape := ⟨1, ![2000]⟩
abbrev S690000x128 : Shape := ⟨2, ![690000, 128]⟩

abbrev nBuf : Space → Nat
  | .hbm => 103
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S2x640000, .i32⟩
  | .hbm, ⟨3, _⟩ => ⟨S50000x1, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x128x2, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S1x640000, .i32⟩
  | .hbm, ⟨19, _⟩ => ⟨S640000, .i32⟩
  | .hbm, ⟨20, _⟩ => ⟨S1x640000, .i32⟩
  | .hbm, ⟨21, _⟩ => ⟨S640000, .i32⟩
  | .hbm, ⟨22, _⟩ => ⟨S128x128, .f32⟩
  | .hbm, ⟨23, _⟩ => ⟨S128x128, .bf16⟩
  | .hbm, ⟨24, _⟩ => ⟨S128x128, .f32⟩
  | .hbm, ⟨25, _⟩ => ⟨S128x128, .bf16⟩
  | .hbm, ⟨26, _⟩ => ⟨S128x128, .f32⟩
  | .hbm, ⟨27, _⟩ => ⟨S128x128, .bf16⟩
  | .hbm, ⟨28, _⟩ => ⟨S128x128, .f32⟩
  | .hbm, ⟨29, _⟩ => ⟨S128x128, .bf16⟩
  | .hbm, ⟨30, _⟩ => ⟨S128x128, .f32⟩
  | .hbm, ⟨31, _⟩ => ⟨S128x128, .bf16⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S1, .i32⟩
  | .hbm, ⟨51, _⟩ => ⟨S_, .i32⟩
  | .hbm, ⟨52, _⟩ => ⟨S640000x1, .i32⟩
  | .hbm, ⟨53, _⟩ => ⟨S640000x1, .i1⟩
  | .hbm, ⟨54, _⟩ => ⟨S1x1, .i32⟩
  | .hbm, ⟨55, _⟩ => ⟨S640000x1, .i32⟩
  | .hbm, ⟨56, _⟩ => ⟨S640000x1, .i1⟩
  | .hbm, ⟨57, _⟩ => ⟨S640000x1, .i1⟩
  | .hbm, ⟨58, _⟩ => ⟨S_, .i1⟩
  | .hbm, ⟨59, _⟩ => ⟨S640000, .i1⟩
  | .hbm, ⟨60, _⟩ => ⟨S640000x128, .f32⟩
  | .hbm, ⟨61, _⟩ => ⟨S640000x128, .i1⟩
  | .hbm, ⟨62, _⟩ => ⟨S_, .f32⟩
  | .hbm, ⟨63, _⟩ => ⟨S640000x128, .f32⟩
  | .hbm, ⟨64, _⟩ => ⟨S640000x128, .f32⟩
  | .hbm, ⟨65, _⟩ => ⟨S_, .i32⟩
  | .hbm, ⟨66, _⟩ => ⟨S640000, .i32⟩
  | .hbm, ⟨67, _⟩ => ⟨S640000, .i1⟩
  | .hbm, ⟨68, _⟩ => ⟨S_, .i32⟩
  | .hbm, ⟨69, _⟩ => ⟨S640000, .i32⟩
  | .hbm, ⟨70, _⟩ => ⟨S640000, .i32⟩
  | .hbm, ⟨71, _⟩ => ⟨S640000, .i32⟩
  | .hbm, ⟨72, _⟩ => ⟨S640000x1, .i32⟩
  | .hbm, ⟨73, _⟩ => ⟨S1, .i32⟩
  | .hbm, ⟨74, _⟩ => ⟨S_, .i32⟩
  | .hbm, ⟨75, _⟩ => ⟨S640000x1, .i32⟩
  | .hbm, ⟨76, _⟩ => ⟨S640000x1, .i1⟩
  | .hbm, ⟨77, _⟩ => ⟨S1x1, .i32⟩
  | .hbm, ⟨78, _⟩ => ⟨S640000x1, .i32⟩
  | .hbm, ⟨79, _⟩ => ⟨S640000x1, .i1⟩
  | .hbm, ⟨80, _⟩ => ⟨S640000x1, .i1⟩
  | .hbm, ⟨81, _⟩ => ⟨S_, .i1⟩
  | .hbm, ⟨82, _⟩ => ⟨S640000, .i1⟩
  | .hbm, ⟨83, _⟩ => ⟨S640000x128, .f32⟩
  | .hbm, ⟨84, _⟩ => ⟨S640000x128, .i1⟩
  | .hbm, ⟨85, _⟩ => ⟨S_, .f32⟩
  | .hbm, ⟨86, _⟩ => ⟨S640000x128, .f32⟩
  | .hbm, ⟨87, _⟩ => ⟨S640000x128, .f32⟩
  | .hbm, ⟨88, _⟩ => ⟨S640000x128, .f32⟩
  | .hbm, ⟨89, _⟩ => ⟨S640000x128, .f32⟩
  | .hbm, ⟨90, _⟩ => ⟨S640000x128, .f32⟩
  | .hbm, ⟨91, _⟩ => ⟨S_, .f32⟩
  | .hbm, ⟨92, _⟩ => ⟨S50000x128, .f32⟩
  | .hbm, ⟨93, _⟩ => ⟨S640000x1, .i32⟩
  | .hbm, ⟨94, _⟩ => ⟨S50000x128, .f32⟩
  | .hbm, ⟨95, _⟩ => ⟨S1x128x1, .f32⟩
  | .hbm, ⟨96, _⟩ => ⟨S128, .f32⟩
  | .hbm, ⟨97, _⟩ => ⟨S1x128, .f32⟩
  | .hbm, ⟨98, _⟩ => ⟨S1x128x1, .f32⟩
  | .hbm, ⟨99, _⟩ => ⟨S128, .f32⟩
  | .hbm, ⟨100, _⟩ => ⟨S1x128, .f32⟩
  | .hbm, ⟨101, _⟩ => ⟨S50000x128, .f32⟩
  | .hbm, ⟨102, _⟩ => ⟨S690000x128, .f32⟩
  | .local _ .vmem, ⟨0, _⟩ => ⟨S2000x128, .f32⟩
  | .local _ .vmem, ⟨1, _⟩ => ⟨S2000x128, .f32⟩
  | .local _ .vmem, ⟨2, _⟩ => ⟨S128x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .bf16⟩
  | .local _ .vmem, ⟨15, _⟩ => ⟨S128x128, .bf16⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x1, .f32⟩
  | .local _ .vmem, ⟨28, _⟩ => ⟨S2000x1, .f32⟩
  | .local _ .vmem, ⟨29, _⟩ => ⟨S128x128, .bf16⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S2000x128, .f32⟩
  | .local _ .vmem, ⟨36, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22_0 : Ref sig .tc := ⟨.hbm, 40, rfl⟩
abbrev main_v22_1 : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_call0_cst : Ref sig .tc := ⟨.hbm, 62, rfl⟩
abbrev main_call0_v15 : Ref sig .tc := ⟨.hbm, 63, rfl⟩
abbrev main_v23 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v24 : Ref sig .tc := ⟨.hbm, 87, rfl⟩
abbrev main_v25 : Ref sig .tc := ⟨.hbm, 88, rfl⟩
abbrev main_v26_0 : Ref sig .tc := ⟨.hbm, 89, rfl⟩
abbrev main_v26_1 : Ref sig .tc := ⟨.hbm, 90, rfl⟩
abbrev main_cst : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg9_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20
abbrev cc1_sem8_0 : DmaSem sig := 21
abbrev cc1_sem8_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem9_1 : DmaSem sig := 36

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  transposes_S128x128_S128x128_1_0 : S128x128.Transposes [1, 0] S128x128
  bitsLt_bf16_f32 : FTy.bits .bf16 < FTy.bits .f32
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  bcast_S_S50000x128 : S_.BroadcastsInDim S50000x128 (![] : Fin 0 → Fin S50000x128.rank)
  slices_S1x128x2_S1x128x1_0_0_0 : S1x128x2.Slices ![0, 0, 0] S1x128x1
  shapeCasts_S1x128x1_S128 : S1x128x1.ShapeCasts S128
  slices_S1x128x2_S1x128x1_0_0_1 : S1x128x2.Slices ![0, 0, 1] S1x128x1
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  broadcasts_S2000x1_S2000x128 : S2000x1.Broadcasts S2000x128
  reduces_S2000x128_S2000 : S2000x128.Reduces [1] S2000
  shapeCasts_S2000_S2000x1 : S2000.ShapeCasts S2000x1
  concatenates_S50000x128_S640000x128_S690000x128_d0 : Shape.Concatenates [S50000x128, S640000x128] S690000x128 0
  dot_S2000x128_S128x128_S2000x128_1_0_0_1_n_n_wf : DotDims.WF S2000x128 S128x128 S2000x128 [1] [0] [0] [1] [] []
  gather_S50000x128_S640000x1_S640000x128_1_0_n_n_0_1_1128_wf : GatherDims.WF S50000x128 S640000x1 S640000x128 [1] [0] [] [0] [] 1 ![1, 128]
  dot_S5000x128_S128x128_S5000x128_1_0_0_1_n_n_wf : DotDims.WF S5000x128 S128x128 S5000x128 [1] [0] [0] [1] [] []
  scatter_S50000x128_S640000x1_S640000x128_1_0_0_1_wf : ScatterDims.WF S50000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S640000x128.size a
  hwx1_0 : ∀ i : grid1.Coords, EltTy.bits .f32 = 32 ∨ (Rect.block (s := S640000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S640000x128.size a
  hwx1_1 : ∀ i : grid1.Coords, EltTy.bits .f32 = 32 ∨ (Rect.block (s := S640000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S640000x128.size a
  hwx1_7 : ∀ i : grid1.Coords, EltTy.bits .f32 = 32 ∨ (Rect.block (s := S640000x128) S5000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S640000x128.size a
  hwx1_8 : ∀ i : grid1.Coords, EltTy.bits .f32 = 32 ∨ (Rect.block (s := S640000x128) S5000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S50000x128.size a
  hwx2_9 : ∀ i : grid2.Coords, EltTy.bits .f32 = 32 ∨ (Rect.block (s := S50000x128) S2000x128.size (cc2_transform_9 i) (hinb2_9 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22_1) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v26_1) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v35) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v18) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v19) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v36) S2000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x128 : Shape := ⟨2, ![50000, 128]⟩
abbrev S640000x128 : Shape := ⟨2, ![640000, 128]⟩
abbrev S2x640000 : Shape := ⟨2, ![2, 640000]⟩
abbrev S50000x1 : Shape := ⟨2, ![50000, 1]⟩
abbrev S128x128 : Shape := ⟨2, ![128, 128]⟩
abbrev S128 : Shape := ⟨1, ![128]⟩
abbrev S1x128x2 : Shape := ⟨3, ![1, 128, 2]⟩
abbrev S1x640000 : Shape := ⟨2, ![1, 640000]⟩
abbrev S640000 : Shape := ⟨1, ![640000]⟩
abbrev S1x128 : Shape := ⟨2, ![1, 128]⟩
abbrev S_ : Shape := ⟨0, ![]⟩
abbrev S640000x1 : Shape := ⟨2, ![640000, 1]⟩
abbrev S50000x128x1 : Shape := ⟨3, ![50000, 128, 1]⟩
abbrev S50000x128x2 : Shape := ⟨3, ![50000, 128, 2]⟩
abbrev S50000 : Shape := ⟨1, ![50000]⟩
abbrev S690000x128 : Shape := ⟨2, ![690000, 128]⟩

abbrev nBuf : Space → Nat
  | .hbm => 141
  | .vmem => 0
  | .smem => 0
  | _ => 0

abbrev hbmTy0_0 (i : Nat) : BufTy := match i % 128 with
  | 0 => ⟨S50000x128, .f32⟩
  | 1 => ⟨S640000x128, .f32⟩
  | 2 => ⟨S2x640000, .i32⟩
  | 3 => ⟨S50000x1, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128, .f32⟩
  | 13 => ⟨S1x128x2, .f32⟩
  | 14 => ⟨S128, .f32⟩
  | 15 => ⟨S128, .f32⟩
  | 16 => ⟨S128, .f32⟩
  | 17 => ⟨S128, .f32⟩
  | 18 => ⟨S1x640000, .i32⟩
  | 19 => ⟨S640000, .i32⟩
  | 20 => ⟨S1x640000, .i32⟩
  | 21 => ⟨S640000, .i32⟩
  | 22 => ⟨S128x128, .f32⟩
  | 23 => ⟨S640000x128, .f32⟩
  | 24 => ⟨S128x128, .f32⟩
  | 25 => ⟨S50000x128, .f32⟩
  | 26 => ⟨S1x128, .f32⟩
  | 27 => ⟨S50000x128, .f32⟩
  | 28 => ⟨S50000x128, .f32⟩
  | 29 => ⟨S128x128, .f32⟩
  | 30 => ⟨S50000x128, .f32⟩
  | 31 => ⟨S1x128, .f32⟩
  | 32 => ⟨S50000x128, .f32⟩
  | 33 => ⟨S50000x128, .f32⟩
  | 34 => ⟨S_, .i32⟩
  | 35 => ⟨S640000, .i32⟩
  | 36 => ⟨S640000, .i1⟩
  | 37 => ⟨S_, .i32⟩
  | 38 => ⟨S640000, .i32⟩
  | 39 => ⟨S640000, .i32⟩
  | 40 => ⟨S640000, .i32⟩
  | 41 => ⟨S640000x1, .i32⟩
  | 42 => ⟨S640000x128, .f32⟩
  | 43 => ⟨S_, .i32⟩
  | 44 => ⟨S640000, .i32⟩
  | 45 => ⟨S640000, .i1⟩
  | 46 => ⟨S_, .i32⟩
  | 47 => ⟨S640000, .i32⟩
  | 48 => ⟨S640000, .i32⟩
  | 49 => ⟨S640000, .i32⟩
  | 50 => ⟨S640000x1, .i32⟩
  | 51 => ⟨S640000x128, .f32⟩
  | 52 => ⟨S640000x128, .f32⟩
  | 53 => ⟨S640000x128, .f32⟩
  | 54 => ⟨S_, .f32⟩
  | 55 => ⟨S640000x128, .f32⟩
  | 56 => ⟨S640000x128, .f32⟩
  | 57 => ⟨S128x128, .f32⟩
  | 58 => ⟨S640000x128, .f32⟩
  | 59 => ⟨S1x128, .f32⟩
  | 60 => ⟨S640000x128, .f32⟩
  | 61 => ⟨S640000x128, .f32⟩
  | 62 => ⟨S_, .f32⟩
  | 63 => ⟨S50000x128, .f32⟩
  | 64 => ⟨S640000x1, .i32⟩
  | 65 => ⟨S50000x128, .f32⟩
  | 66 => ⟨S50000x128, .f32⟩
  | 67 => ⟨S50000x128, .f32⟩
  | 68 => ⟨S50000x128x1, .f32⟩
  | 69 => ⟨S50000x128x1, .f32⟩
  | 70 => ⟨S50000x128x2, .f32⟩
  | 71 => ⟨S50000x128x2, .f32⟩
  | 72 => ⟨S50000x128x2, .f32⟩
  | 73 => ⟨S_, .f32⟩
  | 74 => ⟨S50000x128, .f32⟩
  | 75 => ⟨S128x128, .f32⟩
  | 76 => ⟨S50000x128, .f32⟩
  | 77 => ⟨S1x128, .f32⟩
  | 78 => ⟨S50000x128, .f32⟩
  | 79 => ⟨S50000x128, .f32⟩
  | 80 => ⟨S50000x128, .f32⟩
  | 81 => ⟨S640000x128, .f32⟩
  | 82 => ⟨S_, .f32⟩
  | 83 => ⟨S50000, .f32⟩
  | 84 => ⟨S50000x1, .f32⟩
  | 85 => ⟨S_, .f32⟩
  | 86 => ⟨S50000x1, .f32⟩
  | 87 => ⟨S50000x1, .f32⟩
  | 88 => ⟨S50000x128, .f32⟩
  | 89 => ⟨S50000x128, .f32⟩
  | 90 => ⟨S50000x128, .f32⟩
  | 91 => ⟨S_, .f32⟩
  | 92 => ⟨S50000, .f32⟩
  | 93 => ⟨S50000x1, .f32⟩
  | 94 => ⟨S_, .f32⟩
  | 95 => ⟨S50000x1, .f32⟩
  | 96 => ⟨S50000x1, .f32⟩
  | 97 => ⟨S50000x128, .f32⟩
  | 98 => ⟨S50000x128, .f32⟩
  | 99 => ⟨S_, .f32⟩
  | 100 => ⟨S50000x1, .f32⟩
  | 101 => ⟨S50000x1, .f32⟩
  | 102 => ⟨S50000x1, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S640000, .f32⟩
  | 113 => ⟨S640000x1, .f32⟩
  | 114 => ⟨S_, .f32⟩
  | 115 => ⟨S640000x1, .f32⟩
  | 116 => ⟨S640000x1, .f32⟩
  | 117 => ⟨S640000x128, .f32⟩
  | 118 => ⟨S640000x128, .f32⟩
  | 119 => ⟨S640000x128, .f32⟩
  | 120 => ⟨S_, .f32⟩
  | 121 => ⟨S640000, .f32⟩
  | 122 => ⟨S640000x1, .f32⟩
  | 123 => ⟨S_, .f32⟩
  | 124 => ⟨S640000x1, .f32⟩
  | 125 => ⟨S640000x1, .f32⟩
  | 126 => ⟨S640000x128, .f32⟩
  | 127 => ⟨S640000x128, .f32⟩
  | _ => ⟨S50000x128, .f32⟩

abbrev hbmTy0_1 (i : Nat) : BufTy := match i % 128 with
  | 0 => ⟨S_, .f32⟩
  | 1 => ⟨S640000x1, .f32⟩
  | 2 => ⟨S640000x1, .f32⟩
  | 3 => ⟨S640000x1, .f32⟩
  | 4 => ⟨S640000x128, .f32⟩
  | 5 => ⟨S640000x128, .f32⟩
  | 6 => ⟨S1x128, .f32⟩
  | 7 => ⟨S640000x128, .f32⟩
  | 8 => ⟨S640000x128, .f32⟩
  | 9 => ⟨S1x128, .f32⟩
  | 10 => ⟨S640000x128, .f32⟩
  | 11 => ⟨S640000x128, .f32⟩
  | 12 => ⟨S690000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_1 : Ref sig .tc := ⟨.hbm, 43, rfl⟩
abbrev main_v23 : Ref sig .tc := ⟨.hbm, 44, rfl⟩
abbrev main_v24 : Ref sig .tc := ⟨.hbm, 45, rfl⟩
abbrev main_c_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call0_cst : Ref sig .tc := ⟨.hbm, 54, rfl⟩
abbrev main_call0_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_3 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_4 : Ref sig .tc := ⟨.hbm, 82, rfl⟩
abbrev main_v56 : Ref sig .tc := ⟨.hbm, 83, rfl⟩
abbrev main_v57 : Ref sig .tc := ⟨.hbm, 84, rfl⟩
abbrev main_cst_5 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_6 : Ref sig .tc := ⟨.hbm, 91, rfl⟩
abbrev main_v63 : Ref sig .tc := ⟨.hbm, 92, rfl⟩
abbrev main_v64 : Ref sig .tc := ⟨.hbm, 93, rfl⟩
abbrev main_cst_7 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_8 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_9 : Ref sig .tc := ⟨.hbm, 111, rfl⟩
abbrev main_v80 : Ref sig .tc := ⟨.hbm, 112, rfl⟩
abbrev main_v81 : Ref sig .tc := ⟨.hbm, 113, rfl⟩
abbrev main_cst_10 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_11 : Ref sig .tc := ⟨.hbm, 120, rfl⟩
abbrev main_v87 : Ref sig .tc := ⟨.hbm, 121, rfl⟩
abbrev main_v88 : Ref sig .tc := ⟨.hbm, 122, rfl⟩
abbrev main_cst_12 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_13 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S1x128_S640000x128_0_1 : S1x128.BroadcastsInDim S640000x128 (![0, 1] : Fin 2 → Fin S640000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S50000x128_S50000x128x1_0_1 : S50000x128.BroadcastsInDim S50000x128x1 (![0, 1] : Fin 2 → Fin S50000x128x1.rank)
  concatenates_S50000x128x1_S50000x128x1_S50000x128x2_d2 : Shape.Concatenates [S50000x128x1, S50000x128x1] S50000x128x2 2
  bcast_S1x128x2_S50000x128x2_0_1_2 : S1x128x2.BroadcastsInDim S50000x128x2 (![0, 1, 2] : Fin 3 → Fin S50000x128x2.rank)
  reducesTo_S50000x128x2_S50000x128_d2 : S50000x128x2.ReducesTo [2] S50000x128
  h_S_ : 0 < S_.numel
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  reducesTo_S640000x128_S640000_d1 : S640000x128.ReducesTo [1] S640000
  bcast_S_S640000x1 : S_.BroadcastsInDim S640000x1 (![] : Fin 0 → Fin S640000x1.rank)
  bcast_S640000x1_S640000x128_0_1 : S640000x1.BroadcastsInDim S640000x128 (![0, 1] : Fin 2 → Fin S640000x128.rank)
  concatenates_S50000x128_S640000x128_S690000x128_d0 : Shape.Concatenates [S50000x128, S640000x128] S690000x128 0
  dot_S640000x128_S128x128_S640000x128_1_0_0_1_n_n_wf : DotDims.WF S640000x128 S128x128 S640000x128 [1] [0] [0] [1] [] []
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1

variable [Facts₀]

def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

class Facts : Prop extends Facts₀ where

variable [Facts]
-- ==== Proof.PreDecode.lean ====
/-
  What the precondition says of the edge list: every entry of the 2 × 640000 integer array is a node index,
  0 ≤ e < 50000.  The printed precondition is a chain of conjunctions ending in the two tests "all entries ≥ 0" and
  "all entries < 50000"; the last two conjuncts give the range entry by entry.
-/
import proofs.«425138_j24824910970958_2_alg».proof.Pre_finite_inputs
import proofs.«425138_j24824910970958_2_alg».proof.Proof.Gen.Pre_finite_inputs
import Idealize.ShloMosaic.Lib.ReduceAll
import Idealize.ShloMosaic.Lib.StableHlo.Predicate
import Idealize.ShloMosaic.Lib.ValueIdx

noncomputable section

namespace Cert.Pre_finite_inputs.Decode

open Idealize.ShloMosaic Idealize.ShloMosaic.ValueIdx Cert.Pre_finite_inputs

/-- Every entry of the edge list is a node index. -/
def EndpointsInRange (e : IVec S2x640000 32) : Prop := ∀ i : S2x640000.Idx, 0 ≤ (e i).toInt ∧ (e i).toInt < 50000

/-- The scalar shape has one index. -/
private instance scalarIdxSubsingleton : Subsingleton S_.Idx := ⟨fun a b => funext fun d => d.elim0⟩

/-- A 32-bit word that tests "≥ 0" and "< 50000", both signed, reads signed as an integer in 0 … 49999. -/
private theorem range_of_tests (w : BitVec 32) (hge : IntOp.cmpi .sge w 0#32 = 1#1) (hlt : IntOp.cmpi .slt w 50000#32 = 1#1) :
    0 ≤ w.toInt ∧ w.toInt < 50000 := by
  have a := IntOp.cmpi_sge.1 hge
  have b := IntOp.cmpi_slt.1 hlt
  rw [show (0#32 : BitVec 32).toInt = 0 from by decide] at a
  rw [show (50000#32 : BitVec 32).toInt = 50000 from by decide] at b
  exact ⟨a, b⟩

/-- The precondition holds only of an edge list whose entries are all node indices. -/
theorem endpoints_of_pre {F : FTy → Type} [FloatOps F] [Facts]
    (a0 : FVec F S50000x128 .f32) (a1 : FVec F S640000x128 .f32) (a2 : IVec S2x640000 32) (a3 : FVec F S50000x1 .f32)
    (a4 : FVec F S128x128 .f32) (a5 : FVec F S128 .f32) (a6 : FVec F S128x128 .f32) (a7 : FVec F S128 .f32)
    (a8 a9 : FVec F S128x128 .f32) (a10 : FVec F S128 .f32) (a11 : FVec F S128x128 .f32) (a12 : FVec F S128 .f32)
    (a13 : FVec F S1x128x2 .f32) (a14 a15 a16 a17 : FVec F S128 .f32)
    (h : fn (F := F) a0 a1 a2 a3 a4 a5 a6 a7 a8 a9 a10 a11 a12 a13 a14 a15 a16 a17 = fun _ => 1#1) :
    EndpointsInRange a2 := by
  intro i
  -- the precondition's one word, with the chain of conjunctions in view
  have h0 := congrFun h ix0
  dsimp only [fn, fn_part1, fn_part2, fn_part3, fn_part4, fn_part5] at h0
  -- the last conjunct is "all entries < 50000", the one before it "all entries ≥ 0"
  obtain ⟨h1, hlt⟩ := IntOp.andi_eq_one.1 h0
  obtain ⟨-, hge⟩ := IntOp.andi_eq_one.1 h1
  -- a conjunction over all entries that holds, holds at entry i
  have ege := Host.reduce_andi_all _ _ _ _ _ hge i
  have elt := Host.reduce_andi_all _ _ _ _ _ hlt i
  exact range_of_tests (a2 i) ege elt

end Cert.Pre_finite_inputs.Decode

end
-- ==== Proof.Spec.lean ====
/-
  The mathematics both programs compute, index by index, on the extended reals.

  A graph layer: node features x : [N, 128], edge features conn : [E, 128], every edge e with a destination
  node dst e and a source node src e.  Per edge, the message is
      connOut e = relu (Q (dst e) + K (src e) + conn e · Weᵀ) · Wcᵀ + bc,       Q = x · Wqᵀ + bq,  K = x · Wkᵀ + bk,
  and the edge output is the layer norm of conn + connOut over the 128 features.  Per node, the messages of its
  incoming edges are summed (agg), scaled feature by feature by agg · d₀ + (agg · sqrt_deg) · d₁, mapped by Wnᵀ
  with bias, added to x, and layer-normed.  This file names those maps for an arbitrary number of rows `n`:
  a row-times-matrix product with bias (`rowLin`), the layer norm of a row (`layerNorm`), the edge message and
  the edge and node outputs.  No program is mentioned here.
-/
import Idealize.ShloMosaic.PureOps.Ideal
import Idealize.ShloMosaic.Lib.ValueIdx

noncomputable section

namespace Cert.GraphLayer

open Idealize.ShloMosaic Idealize.ShloMosaic.ValueIdx

/-- `n` rows of 128 features. -/
abbrev Rows (n : Nat) : Shape := ⟨2, ![n, 128]⟩
/-- A 128 × 128 parameter matrix. -/
abbrev Sq : Shape := ⟨2, ![128, 128]⟩
/-- One row of 128 features. -/
abbrev Row1 : Shape := ⟨2, ![1, 128]⟩
/-- One column of `n` entries. -/
abbrev Col (n : Nat) : Shape := ⟨2, ![n, 1]⟩

/-- Entry (r, k) of an array of `n` rows. -/
abbrev at2 {n : Nat} (r : Fin n) (k : Fin 128) : (Rows n).Idx := ix2 r k
/-- Entry (k, j) of a square matrix. -/
abbrev sq2 (k j : Fin 128) : Sq.Idx := ix2 k j
/-- Entry j of a single row. -/
abbrev row1 (j : Fin 128) : Row1.Idx := ix2 (0 : Fin 1) j
/-- Entry r of a single column. -/
abbrev col1 {n : Nat} (r : Fin n) : (Col n).Idx := ix2 r (0 : Fin 1)

variable {n : Nat}

/-- The rows of `x` times a matrix given ALREADY TRANSPOSED (entry (k, j) multiplies feature k into output j),
    plus a bias row: (x · Wt + b)(r, j) = Σₖ x(r, k) · Wt(k, j) + b(j). -/
def rowLin (x : FVec Ideal (Rows n) .f32) (Wt : FVec Ideal Sq .bf16) (b : FVec Ideal Row1 .f32) : FVec Ideal (Rows n) .f32 :=
  fun i => (∑ k : Fin 128, x (at2 (i 0) k) * Wt (sq2 k (i 1))) + b (row1 (i 1))

/-- The same product with no bias. -/
def rowMul (x : FVec Ideal (Rows n) .f32) (Wt : FVec Ideal Sq .bf16) : FVec Ideal (Rows n) .f32 :=
  fun i => ∑ k : Fin 128, x (at2 (i 0) k) * Wt (sq2 k (i 1))

/-- The number of features, 128, as the programs spell it. -/
def featCount : EReal := Ideal.ofBits .f32 0x43000000#32
/-- The layer norm's variance offset, the f32 nearest 1e-5, as the programs spell it. -/
def lnEps : EReal := Ideal.ofBits .f32 0x3727C5AC#32
/-- The f32 zero word relu compares against. -/
def zeroWord : EReal := Ideal.ofBits .f32 0x00000000#32

/-- The mean of row `r`: the sum of its 128 features divided by 128. -/
def rowMean (z : FVec Ideal (Rows n) .f32) (r : Fin n) : EReal :=
  Ideal.div (∑ k : Fin 128, z (at2 r k)) featCount

/-- The variance of row `r`: the mean of the squared deviations from the row's mean. -/
def rowVar (z : FVec Ideal (Rows n) .f32) (r : Fin n) : EReal :=
  Ideal.div (∑ k : Fin 128, (z (at2 r k) - rowMean z r) * (z (at2 r k) - rowMean z r)) featCount

/-- Layer norm over the 128 features of each row, with gain `g` and shift `b`:
    ((z − mean) · (var + ε)^(−1/2)) · g + b. -/
def layerNorm (z : FVec Ideal (Rows n) .f32) (g b : FVec Ideal Row1 .f32) : FVec Ideal (Rows n) .f32 :=
  fun i => ((z i - rowMean z (i 0)) * Ideal.rsqrt (rowVar z (i 0) + lnEps)) * g (row1 (i 1)) + b (row1 (i 1))

/-- The edge message: relu of the gathered node projections `qk` plus the edge projection, then the output
    projection with bias. -/
def edgeMsg (conn qk : FVec Ideal (Rows n) .f32) (WeT WcT : FVec Ideal Sq .bf16) (bc : FVec Ideal Row1 .f32) :
    FVec Ideal (Rows n) .f32 :=
  rowLin (fun i => max (qk i + rowMul conn WeT i) zeroWord) WcT bc

/-- The edge output: the layer norm of the edge features plus their message. -/
def edgeOut (conn qk : FVec Ideal (Rows n) .f32) (WeT WcT : FVec Ideal Sq .bf16) (bc ge be : FVec Ideal Row1 .f32) :
    FVec Ideal (Rows n) .f32 :=
  layerNorm (fun i => conn i + edgeMsg conn qk WeT WcT bc i) ge be

/-- The degree scaling of the aggregated messages, feature by feature: agg · d₀ + (agg · sqrt_deg) · d₁. -/
def degScale (agg : FVec Ideal (Rows n) .f32) (sd : FVec Ideal (Col n) .f32) (d0 d1 : FVec Ideal Row1 .f32) :
    FVec Ideal (Rows n) .f32 :=
  fun i => agg i * d0 (row1 (i 1)) + (agg i * sd (col1 (i 0))) * d1 (row1 (i 1))

/-- The node output: the layer norm of the node features plus the projected, degree-scaled aggregate. -/
def nodeOut (x agg : FVec Ideal (Rows n) .f32) (sd : FVec Ideal (Col n) .f32) (WnT : FVec Ideal Sq .bf16)
    (bn d0 d1 gh bh : FVec Ideal Row1 .f32) : FVec Ideal (Rows n) .f32 :=
  layerNorm (fun i => x i + rowLin (degScale agg sd d0 d1) WnT bn i) gh bh

/-! ## How a parameter reaches a kernel: transposed, or as one row -/

/-- A parameter matrix transposed (and narrowed to bf16, which changes nothing here). -/
def transposed (W : FVec Ideal Sq .f32) : FVec Ideal Sq .bf16 := fun i => W (sq2 (i 1) (i 0))

/-- A parameter vector laid out as one row. -/
def asRow (b : FVec Ideal (⟨1, ![128]⟩ : Shape) .f32) : FVec Ideal Row1 .f32 := fun i => b (ix1 (i 1))

/-- Coefficient `k` (0 or 1) of the degree scaler, as one row over the features. -/
def degCoef (dc : FVec Ideal (⟨3, ![1, 128, 2]⟩ : Shape) .f32) (k : Fin 2) : FVec Ideal Row1 .f32 :=
  fun i => dc (ix3 (0 : Fin 1) (i 1) k)

end Cert.GraphLayer

end
-- ==== Proof.ProjValue.lean ====
/-
  The projection kernel: over 25 blocks of 2000 node rows it writes Q = x · Wqᵀ + bq and K = x · Wkᵀ + bk, the
  weights arriving already transposed and the biases as one row.  Each block of an output array is that map of
  the same rows of x; the 25 blocks tile the 50000 rows; so each output array IS the row-linear map of the
  whole of x.
-/
import proofs.«425138_j24824910970958_2_alg».proof.Proof.Gen.KernelIdeal.Frame
import proofs.«425138_j24824910970958_2_alg».proof.Proof.Spec
import Idealize.ShloMosaic.PureOps.Ideal.Laws
import Idealize.ShloMosaic.Lib.Pipeline.Value
set_option maxRecDepth 16384

noncomputable section

namespace Cert.KernelIdeal.ProjValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphLayer

/-! ## The block product at an entry

The product of a 2000 × 128 block with a 128 × 128 matrix contracts the block's column axis with the matrix's row
axis.  Its operand indices, axis by axis: the left operand is read at (output row, k), the right at (k, output column). -/

/-- The left operand's row is the output's row. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the contracted index. -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the contracted index. -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column is the output's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of the block product accumulated onto zero: Σₖ x(p, k) · W(k, q). -/
theorem blockMul_apply (x : FVec Ideal S2000x128 .bf16) (W : FVec Ideal S128x128 .bf16) (p : Fin 2000) (q : Fin 128) :
    matmul dot_S2000x128_S128x128_S2000x128_1_0_0_1_n_n none x W (constant (F := Ideal) S2000x128 .f32 0x00000000#32) (ix2 p q)
      = ∑ k : Fin 128, x (ix2 p k) * W (ix2 k q) := by
  refine (Ideal.matmul_constant_zero_apply dot_S2000x128_S128x128_S2000x128_1_0_0_1_n_n none x W (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row repeated over the block's 2000 rows, at entry (p, q), is the row's entry q. -/
theorem biasRows_apply (b : FVec Ideal S1x128 .f32) (p : Fin 2000) (q : Fin 128) :
    broadcastTo S2000x128 b broadcasts_S1x128_S2000x128 (ix2 p q) = b (ix2 (0 : Fin 1) q) := by
  refine broadcastTo_apply b broadcasts_S1x128_S2000x128 (ix2 p q) (ix2 (0 : Fin 1) q) (fun a => ?_)
  match a with
  | ⟨0, _⟩ => show (0 : Nat) = if (1 : Nat) = 1 then 0 else p.val; rw [if_pos rfl]
  | ⟨1, _⟩ => show q.val = if (128 : Nat) = 1 then 0 else q.val; rw [if_neg (by decide)]

/-- The block stored into the first output window, at entry (p, q): row p of the block of x times the matrix, plus
    the bias; the narrowing of x and the two reshapes to the same shape change nothing on the extended reals. -/
theorem qStore_apply (x : FVec Ideal S2000x128 .f32) (W : FVec Ideal S128x128 .bf16) (b : FVec Ideal S1x128 .f32) (p : Fin 2000) (q : Fin 128) :
    k0_pay2 x W b (ix2 p q) = (∑ k : Fin 128, x (ix2 p k) * W (ix2 k q)) + b (ix2 (0 : Fin 1) q) := by
  unfold k0_pay2 k0_pay1
  dsimp only
  rw [shapeCast_self, shapeCast_self, addf_apply, blockMul_apply, biasRows_apply]
  rfl

/-- The block stored into the second output window is the same map of its own matrix and bias. -/
theorem kStore_apply (x : FVec Ideal S2000x128 .f32) (W : FVec Ideal S128x128 .bf16) (b : FVec Ideal S1x128 .f32) (p : Fin 2000) (q : Fin 128) :
    k0_pay3 x W b (ix2 p q) = (∑ k : Fin 128, x (ix2 p k) * W (ix2 k q)) + b (ix2 (0 : Fin 1) q) := by
  unfold k0_pay3 k0_pay1
  dsimp only
  rw [shapeCast_self, shapeCast_self, addf_apply, blockMul_apply, biasRows_apply]
  rfl

/-! ## The windows' blocks as parts of the arrays -/

variable (V : (c : Dev nD) → (b : Ref sig .tc) → Buf (Elt Ideal) ((c : Thread nD τ).loc b))

theorem zeroOffsets : (![0, 0] : Fin 2 → Nat) = fun _ => 0 := funext fun a => by fin_cases a <;> rfl

/-- The index maps over the 25 grid points: the row-blocked windows (x and the two outputs) sit at block (t, 0), the
    matrices and bias rows at block (0, 0). -/
theorem indexMaps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Block t of x is its rows 2000·t … 2000·t + 1999. -/
theorem xBlock_apply (c : Dev nD) (t : Fin cfg0.N) (y : S2000x128.Idx) (i : S50000x128.Idx)
    (h0 : (i 0).val = t.val * 2000 + (y 0).val) (h1 : (i 1).val = (y 1).val) :
    (iblk0 V c 0 t : Vec Ideal S2000x128 .f32) y = (V c main_arg0 : S50000x128.Idx → EReal) i := by
  obtain ⟨e0, e1, -⟩ := indexMaps t
  unfold iblk0
  rw [View.read_apply]
  show V c main_arg0 _ = V c main_arg0 _
  refine congrArg (V c main_arg0) ?_
  funext a
  apply Fin.ext
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- The first matrix's block is the whole matrix at every point. -/
theorem wqBlock_apply (c : Dev nD) (t : Fin cfg0.N) (y i : S128x128.Idx)
    (h0 : (i 0).val = (y 0).val) (h1 : (i 1).val = (y 1).val) :
    (iblk0 V c 1 t : Vec Ideal S128x128 .bf16) y = (V c main_v5 : S128x128.Idx → EReal) i := by
  obtain ⟨-, -, e0, e1, -⟩ := indexMaps t
  unfold iblk0
  rw [View.read_apply]
  show V c main_v5 _ = V c main_v5 _
  refine congrArg (V c main_v5) ?_
  funext a
  apply Fin.ext
  match a with
  | ⟨0, _⟩ => show win0_1.index t (0 : Fin 2) * 128 + 1 * (y 0).val = (i 0).val; rw [e0, h0]; omega
  | ⟨1, _⟩ => show win0_1.index t (1 : Fin 2) * 128 + 1 * (y 1).val = (i 1).val; rw [e1, h1]; omega

/-- The first bias row's block is the whole row at every point. -/
theorem bqBlock_apply (c : Dev nD) (t : Fin cfg0.N) (y i : S1x128.Idx)
    (h0 : (i 0).val = (y 0).val) (h1 : (i 1).val = (y 1).val) :
    (iblk0 V c 2 t : Vec Ideal S1x128 .f32) y = (V c main_v14 : S1x128.Idx → EReal) i := by
  obtain ⟨-, -, -, -, e0, e1, -⟩ := indexMaps t
  unfold iblk0
  rw [View.read_apply]
  show V c main_v14 _ = V c main_v14 _
  refine congrArg (V c main_v14) ?_
  funext a
  apply Fin.ext
  match a with
  | ⟨0, _⟩ => show win0_2.index t (0 : Fin 2) * 1 + 1 * (y 0).val = (i 0).val; rw [e0, h0]; omega
  | ⟨1, _⟩ => show win0_2.index t (1 : Fin 2) * 128 + 1 * (y 1).val = (i 1).val; rw [e1, h1]; omega

/-- The second matrix's block is the whole matrix at every point. -/
theorem wkBlock_apply (c : Dev nD) (t : Fin cfg0.N) (y i : S128x128.Idx)
    (h0 : (i 0).val = (y 0).val) (h1 : (i 1).val = (y 1).val) :
    (iblk0 V c 3 t : Vec Ideal S128x128 .bf16) y = (V c main_v7 : S128x128.Idx → EReal) i := by
  obtain ⟨-, -, -, -, -, -, e0, e1, -⟩ := indexMaps t
  unfold iblk0
  rw [View.read_apply]
  show V c main_v7 _ = V c main_v7 _
  refine congrArg (V c main_v7) ?_
  funext a
  apply Fin.ext
  match a with
  | ⟨0, _⟩ => show win0_3.index t (0 : Fin 2) * 128 + 1 * (y 0).val = (i 0).val; rw [e0, h0]; omega
  | ⟨1, _⟩ => show win0_3.index t (1 : Fin 2) * 128 + 1 * (y 1).val = (i 1).val; rw [e1, h1]; omega

/-- The second bias row's block is the whole row at every point. -/
theorem bkBlock_apply (c : Dev nD) (t : Fin cfg0.N) (y i : S1x128.Idx)
    (h0 : (i 0).val = (y 0).val) (h1 : (i 1).val = (y 1).val) :
    (iblk0 V c 4 t : Vec Ideal S1x128 .f32) y = (V c main_v15 : S1x128.Idx → EReal) i := by
  obtain ⟨-, -, -, -, -, -, -, -, e0, e1, -⟩ := indexMaps t
  unfold iblk0
  rw [View.read_apply]
  show V c main_v15 _ = V c main_v15 _
  refine congrArg (V c main_v15) ?_
  funext a
  apply Fin.ext
  match a with
  | ⟨0, _⟩ => show win0_4.index t (0 : Fin 2) * 1 + 1 * (y 0).val = (i 0).val; rw [e0, h0]; omega
  | ⟨1, _⟩ => show win0_4.index t (1 : Fin 2) * 128 + 1 * (y 1).val = (i 1).val; rw [e1, h1]; omega

/-! ## The first output: Q = x · Wqᵀ + bq -/

/-- Entry y of the block stored at point t is entry i of x · Wqᵀ + bq, for i in row 2000·t + (y's row) and y's
    column: the block of x holds those rows, the matrix and the bias are whole. -/
theorem qBlock_apply (c : Dev nD) (t : Fin cfg0.N) (y : S2000x128.Idx) (i : S50000x128.Idx)
    (h0 : (i 0).val = t.val * 2000 + (y 0).val) (h1 : (i 1).val = (y 1).val) :
    k0_pay2 (iblk0 V c 0 t) (iblk0 V c 1 t) (iblk0 V c 2 t) y
      = rowLin (n := 50000) (V c main_arg0) (V c main_v5) (V c main_v14) i := by
  obtain ⟨p, q, rfl⟩ : ∃ (p : Fin 2000) (q : Fin 128), y = ix2 p q := ⟨y 0, y 1, eq_ix2 y⟩
  refine (qStore_apply (iblk0 V c 0 t) (iblk0 V c 1 t) (iblk0 V c 2 t) p q).trans ?_
  unfold rowLin
  refine congrArg₂ (· + ·) (Finset.sum_congr rfl fun k _ => congrArg₂ (· * ·) ?_ ?_) ?_
  · exact xBlock_apply V c t (ix2 p k) (at2 (i 0) k) h0 rfl
  · exact wqBlock_apply V c t (ix2 k q) (sq2 k (i 1)) rfl h1
  · exact bqBlock_apply V c t (ix2 (0 : Fin 1) q) (row1 (i 1)) rfl h1

/-- What point t writes back into the first output array is block t of x · Wqᵀ + bq. -/
theorem flushed_q (c : Dev nD) (t : Fin cfg0.N) :
    (dat0 (F := Ideal) V c).flushed 5 t
      = ((cfg0.win 5).blk t).view.read (Elt Ideal) (rowLin (n := 50000) (V c main_arg0) (V c main_v5) (V c main_v14)) := by
  show (cfg0.win 5).cut (grid0.coords t) ((dat0 V c).after 5 t) = _
  rw [after0_5]
  unfold out0_5
  rw [View.canon_unit_zero zeroOffsets]
  simp only [View.ld_unit_zero (S := S2000x128) zeroOffsets, View.ld_unit_zero (S := S128x128) zeroOffsets, View.ld_unit_zero (S := S1x128) zeroOffsets]
  obtain ⟨-, -, -, -, -, -, -, -, -, -, e0, e1, -⟩ := indexMaps t
  funext j
  refine qBlock_apply V c t ((cfg0.win 5).xinj (grid0.coords t) j) (((cfg0.win 5).blk t).view.emb j) ?_ ?_
  · show win0_5.index t (0 : Fin 2) * 2000 + 1 * (j 0).val = t.val * 2000 + (j 0).val
    rw [e0]; omega
  · show win0_5.index t (1 : Fin 2) * 128 + 1 * (j 1).val = (j 1).val
    rw [e1]; omega

/-- An index of the first output array lies in point t's block iff, on each axis, it lies in the block's range. -/
theorem mem_blk_q (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v22_0).slice (win0_5.rect t)).set ↔ _
  rw [View.set_slice_whole, Rect.mem_set_unit]
  exact Iff.rfl

/-- The 25 blocks tile the 50000 rows: row r lies in block r / 2000. -/
theorem cover_q (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have ht : (i 0).val / 2000 < 25 := by omega
  refine ⟨⟨(i 0).val / 2000, ht⟩, flush0_5 _, ?_⟩
  obtain ⟨-, -, -, -, -, -, -, -, -, -, e0, e1, -⟩ := indexMaps ⟨(i 0).val / 2000, ht⟩
  rw [mem_blk_q]
  intro a
  match a with
  | ⟨0, _⟩ => show win0_5.index _ (0 : Fin 2) * 2000 ≤ (i 0).val ∧ (i 0).val < win0_5.index _ (0 : Fin 2) * 2000 + 2000; rw [e0]; show (i 0).val / 2000 * 2000 ≤ (i 0).val ∧ (i 0).val < (i 0).val / 2000 * 2000 + 2000; omega
  | ⟨1, _⟩ => show win0_5.index _ (1 : Fin 2) * 128 ≤ (i 1).val ∧ (i 1).val < win0_5.index _ (1 : Fin 2) * 128 + 128; rw [e1]; omega

/-- After the projection region, its first output array is x · Wqᵀ + bq, row by row, of the arrays the region found. -/
theorem proj_q (c : Dev nD) :
    (dat0 (F := Ideal) V c).arrAt 5 cfg0.N
      = fun i => rowLin (n := 50000) (V c main_arg0) (V c main_v5) (V c main_v14) i :=
  (dat0 (F := Ideal) V c).arrAt_eq_of_cover 5 (rowLin (n := 50000) (V c main_arg0) (V c main_v5) (V c main_v14))
    (fun t _ => flushed_q V c t) cover_q

/-! ## The second output: K = x · Wkᵀ + bk -/

/-- Entry y of the second block stored at point t is entry i of x · Wkᵀ + bk, for i in row 2000·t + (y's row) and
    y's column. -/
theorem kBlock_apply (c : Dev nD) (t : Fin cfg0.N) (y : S2000x128.Idx) (i : S50000x128.Idx)
    (h0 : (i 0).val = t.val * 2000 + (y 0).val) (h1 : (i 1).val = (y 1).val) :
    k0_pay3 (iblk0 V c 0 t) (iblk0 V c 3 t) (iblk0 V c 4 t) y
      = rowLin (n := 50000) (V c main_arg0) (V c main_v7) (V c main_v15) i := by
  obtain ⟨p, q, rfl⟩ : ∃ (p : Fin 2000) (q : Fin 128), y = ix2 p q := ⟨y 0, y 1, eq_ix2 y⟩
  refine (kStore_apply (iblk0 V c 0 t) (iblk0 V c 3 t) (iblk0 V c 4 t) p q).trans ?_
  unfold rowLin
  refine congrArg₂ (· + ·) (Finset.sum_congr rfl fun k _ => congrArg₂ (· * ·) ?_ ?_) ?_
  · exact xBlock_apply V c t (ix2 p k) (at2 (i 0) k) h0 rfl
  · exact wkBlock_apply V c t (ix2 k q) (sq2 k (i 1)) rfl h1
  · exact bkBlock_apply V c t (ix2 (0 : Fin 1) q) (row1 (i 1)) rfl h1

/-- What point t writes back into the second output array is block t of x · Wkᵀ + bk. -/
theorem flushed_k (c : Dev nD) (t : Fin cfg0.N) :
    (dat0 (F := Ideal) V c).flushed 6 t
      = ((cfg0.win 6).blk t).view.read (Elt Ideal) (rowLin (n := 50000) (V c main_arg0) (V c main_v7) (V c main_v15)) := by
  show (cfg0.win 6).cut (grid0.coords t) ((dat0 V c).after 6 t) = _
  rw [after0_6]
  unfold out0_6
  rw [View.canon_unit_zero zeroOffsets]
  simp only [View.ld_unit_zero (S := S2000x128) zeroOffsets, View.ld_unit_zero (S := S128x128) zeroOffsets, View.ld_unit_zero (S := S1x128) zeroOffsets]
  obtain ⟨-, -, -, -, -, -, -, -, -, -, -, -, e0, e1⟩ := indexMaps t
  funext j
  refine kBlock_apply V c t ((cfg0.win 6).xinj (grid0.coords t) j) (((cfg0.win 6).blk t).view.emb j) ?_ ?_
  · show win0_6.index t (0 : Fin 2) * 2000 + 1 * (j 0).val = t.val * 2000 + (j 0).val
    rw [e0]; omega
  · show win0_6.index t (1 : Fin 2) * 128 + 1 * (j 1).val = (j 1).val
    rw [e1]; omega

/-- An index of the second output array lies in point t's block iff, on each axis, it lies in the block's range. -/
theorem mem_blk_k (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v22_1).slice (win0_6.rect t)).set ↔ _
  rw [View.set_slice_whole, Rect.mem_set_unit]
  exact Iff.rfl

/-- Its 25 blocks tile the 50000 rows in the same way. -/
theorem cover_k (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have ht : (i 0).val / 2000 < 25 := by omega
  refine ⟨⟨(i 0).val / 2000, ht⟩, flush0_6 _, ?_⟩
  obtain ⟨-, -, -, -, -, -, -, -, -, -, -, -, e0, e1⟩ := indexMaps ⟨(i 0).val / 2000, ht⟩
  rw [mem_blk_k]
  intro a
  match a with
  | ⟨0, _⟩ => show win0_6.index _ (0 : Fin 2) * 2000 ≤ (i 0).val ∧ (i 0).val < win0_6.index _ (0 : Fin 2) * 2000 + 2000; rw [e0]; show (i 0).val / 2000 * 2000 ≤ (i 0).val ∧ (i 0).val < (i 0).val / 2000 * 2000 + 2000; omega
  | ⟨1, _⟩ => show win0_6.index _ (1 : Fin 2) * 128 ≤ (i 1).val ∧ (i 1).val < win0_6.index _ (1 : Fin 2) * 128 + 128; rw [e1]; omega

/-- After the projection region, its second output array is x · Wkᵀ + bk. -/
theorem proj_k (c : Dev nD) :
    (dat0 (F := Ideal) V c).arrAt 6 cfg0.N
      = fun i => rowLin (n := 50000) (V c main_arg0) (V c main_v7) (V c main_v15) i :=
  (dat0 (F := Ideal) V c).arrAt_eq_of_cover 6 (rowLin (n := 50000) (V c main_arg0) (V c main_v7) (V c main_v15))
    (fun t _ => flushed_k V c t) cover_k

end Cert.KernelIdeal.ProjValue

end
-- ==== Proof.EdgeValue.lean ====
/-
  The edge kernel: over 128 blocks of 5000 edge rows it writes the edge message
  relu (qk + conn · Weᵀ) · Wcᵀ + bc and the layer norm of conn + message.  Every row's result depends on that
  row only, the 128 blocks tile the 640000 rows, so each output array is the row-wise map of the whole inputs.

  The plan.  (1) What the body stores for a block, read at an entry (p, q), is the specification's edge message /
  edge output of the block's OWN 5000 rows: the two 128-wide products are sums over the shared feature, the lane
  sums are the rows' sums, the spread rows and columns read their one entry, and everything else is entry by entry.
  (2) The specification's edge message and edge output at a row depend on that row of the two row arrays only.
  (3) Block t of a row array holds rows 5000·t … 5000·t + 4999 of it, the parameter windows hold their whole arrays,
  so what point t writes back is block t of the specification applied to the whole arrays; row r lies in block
  r / 5000, so the blocks cover the output arrays.
-/
import proofs.«425138_j24824910970958_2_alg».proof.Proof.Gen.KernelIdeal.Frame
import proofs.«425138_j24824910970958_2_alg».proof.Proof.Spec
import Idealize.ShloMosaic.PureOps.Ideal.Laws
import Idealize.ShloMosaic.Lib.Pipeline.Value
import Idealize.ShloMosaic.Lib.ValueLayout
set_option maxRecDepth 16384

noncomputable section

namespace Cert.KernelIdeal.EdgeValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphLayer

/-! ## A block of 5000 rows times a 128 × 128 matrix, read at an entry -/

/-- The product's dimension record: rows of the left operand against columns of the right. -/
abbrev rowDot := dot_S5000x128_S128x128_S5000x128_1_0_0_1_n_n

theorem lhs_row_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_row_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_row_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the product into a zero accumulator is the sum over the shared feature k of
    left (p, k) times right (k, q). -/
theorem rowProduct_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row_0 _ _
    | ⟨1, _⟩ => exact (lhs_row_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_row_0 _ _).trans hk
    | ⟨1, _⟩ => exact rhs_row_1 _ _)
  rw [el, er]

/-! ## Rows and columns spread over a block -/

/-- One row spread over the 5000 rows reads, at (p, q), the row's entry q. -/
theorem rowSpread_apply (v : FVec Ideal S1x128 .f32) (p : Fin 5000) (q : Fin 128) :
    broadcastTo S5000x128 v broadcasts_S1x128_S5000x128 (ix2 p q) = v (ix2 (0 : Fin 1) q) :=
  broadcastTo_1b_ab_apply v broadcasts_S1x128_S5000x128 p q

/-- One column spread over the 128 features reads, at (p, q), the column's entry p. -/
theorem colSpread_apply (v : FVec Ideal S5000x1 .f32) (p : Fin 5000) (q : Fin 128) :
    broadcastTo S5000x128 v broadcasts_S5000x1_S5000x128 (ix2 p q) = v (ix2 p (0 : Fin 1)) := by
  refine broadcastTo_apply v broadcasts_S5000x1_S5000x128 (ix2 p q) (ix2 p (0 : Fin 1)) fun ax => ?_
  match ax with
  | ⟨0, _⟩ => rfl
  | ⟨1, _⟩ => rfl

/-- The sum over the features of each row, laid out as a column: at (p, 0) it is the sum of row p. -/
theorem laneSum_apply (z : FVec Ideal S5000x128 .f32) (p : Fin 5000) (u : Fin 1) :
    shapeCast S5000x1 (multiReduction (F := Ideal) .add [1] S5000 z 0x00000000#32 reduces_S5000x128_S5000 (.inl rfl) rfl) shapeCasts_S5000_S5000x1 (ix2 p u)
      = ∑ k : Fin 128, z (ix2 p k) := by
  refine (shapeCast_apply _ shapeCasts_S5000_S5000x1 (ix2 p u) (ix1 p) ?_).trans ?_
  · rw [Shape.rowMajor_val_one, Shape.rowMajor_val_two]
    show p.val = p.val * 1 + u.val
    have := u.isLt; omega
  · refine (Ideal.multiReduction_add_single z 0x00000000#32 reduces_S5000x128_S5000 (.inl rfl) rfl (ix1 p)).trans ?_
    refine Finset.sum_congr rfl fun k _ => congrArg z (funext fun a => Fin.ext ?_)
    match a with
    | ⟨0, _⟩ => rfl
    | ⟨1, _⟩ => rfl

/-! ## The message of a block of rows -/

/-- The message the body stores for a block is the edge message of the block's own 5000 rows:
    the rows times Weᵀ, added to the gathered projections, cut at zero, times Wcᵀ, plus the bias row. -/
theorem msgBlock_apply (x0 qk : FVec Ideal S5000x128 .f32) (We Wc : FVec Ideal S128x128 .bf16) (bc : FVec Ideal S1x128 .f32)
    (p : Fin 5000) (q : Fin 128) :
    k1_pay2 (F := Ideal) x0 We qk Wc bc (ix2 p q) = edgeMsg (n := 5000) x0 qk We Wc bc (ix2 p q) := by
  unfold k1_pay2
  rw [shapeCast_self We, shapeCast_self qk, shapeCast_self Wc, shapeCast_self bc]
  refine (addf_apply _ _ _).trans ?_
  rw [rowProduct_apply, rowSpread_apply]
  unfold edgeMsg rowLin rowMul
  refine congrArg₂ (· + ·) (Finset.sum_congr rfl fun k _ => congrArg (· * Wc (ix2 k q)) ?_) rfl
  refine congrArg₂ max (congrArg (qk (ix2 p k) + ·) ((rowProduct_apply _ _ p k).trans ?_)) rfl
  rfl

theorem msgBlock_eq (x0 qk : FVec Ideal S5000x128 .f32) (We Wc : FVec Ideal S128x128 .bf16) (bc : FVec Ideal S1x128 .f32) :
    k1_pay2 (F := Ideal) x0 We qk Wc bc = edgeMsg (n := 5000) x0 qk We Wc bc := by
  funext j
  obtain ⟨p, q, rfl⟩ : ∃ (p : Fin 5000) (q : Fin 128), j = ix2 p q := ⟨j 0, j 1, eq_ix2 j⟩
  exact msgBlock_apply x0 qk We Wc bc p q

/-- The rows the layer norm is taken of: the edge features plus their message. -/
theorem sumBlock_eq (x0 qk : FVec Ideal S5000x128 .f32) (We Wc : FVec Ideal S128x128 .bf16) (bc : FVec Ideal S1x128 .f32) :
    k1_pay3 (F := Ideal) x0 We qk Wc bc = fun i => x0 i + edgeMsg (n := 5000) x0 qk We Wc bc i := by
  unfold k1_pay3
  rw [msgBlock_eq]
  rfl

/-! ## The mean and the variance of each row, as columns -/

/-- The mean column at row p is the row's mean. -/
theorem meanBlock_apply (x0 qk : FVec Ideal S5000x128 .f32) (We Wc : FVec Ideal S128x128 .bf16) (bc : FVec Ideal S1x128 .f32)
    (p : Fin 5000) (u : Fin 1) :
    k1_pay6 (F := Ideal) x0 We qk Wc bc (ix2 p u) = rowMean (n := 5000) (fun i => x0 i + edgeMsg (n := 5000) x0 qk We Wc bc i) p := by
  unfold k1_pay6
  rw [sumBlock_eq]
  refine (divf_apply _ _ _).trans ?_
  rw [laneSum_apply]
  rfl

/-- The variance column at row p is the row's variance. -/
theorem varBlock_apply (x0 qk : FVec Ideal S5000x128 .f32) (We Wc : FVec Ideal S128x128 .bf16) (bc : FVec Ideal S1x128 .f32)
    (p : Fin 5000) (u : Fin 1) :
    k1_pay7 (F := Ideal) x0 We qk Wc bc (ix2 p u) = rowVar (n := 5000) (fun i => x0 i + edgeMsg (n := 5000) x0 qk We Wc bc i) p := by
  unfold k1_pay7
  refine (divf_apply _ _ _).trans ?_
  rw [laneSum_apply]
  unfold rowVar
  refine congrArg (Ideal.div · featCount) (Finset.sum_congr rfl fun k _ => ?_)
  have e : subf (k1_pay3 (F := Ideal) x0 We qk Wc bc) (broadcastTo S5000x128 (k1_pay6 (F := Ideal) x0 We qk Wc bc) broadcasts_S5000x1_S5000x128) (ix2 p k)
      = (fun i => x0 i + edgeMsg (n := 5000) x0 qk We Wc bc i) (at2 p k) - rowMean (n := 5000) (fun i => x0 i + edgeMsg (n := 5000) x0 qk We Wc bc i) p := by
    refine (subf_apply _ _ _).trans ?_
    rw [colSpread_apply, meanBlock_apply, sumBlock_eq]
  exact congrArg₂ (· * ·) e e

/-! ## The layer-normed block -/

/-- What the body stores in the second output for a block is the edge output of the block's own rows. -/
theorem outBlock_apply (x0 qk : FVec Ideal S5000x128 .f32) (We Wc : FVec Ideal S128x128 .bf16) (bc g b : FVec Ideal S1x128 .f32)
    (p : Fin 5000) (q : Fin 128) :
    k1_pay1 (F := Ideal) (k1_pay3 (F := Ideal) x0 We qk Wc bc) (k1_pay4 (F := Ideal) g) (k1_pay5 (F := Ideal) b)
        (k1_pay6 (F := Ideal) x0 We qk Wc bc) (k1_pay7 (F := Ideal) x0 We qk Wc bc) (ix2 p q)
      = edgeOut (n := 5000) x0 qk We Wc bc g b (ix2 p q) := by
  unfold k1_pay1 k1_pay4 k1_pay5
  rw [shapeCast_self g, shapeCast_self b]
  refine (addf_apply _ _ _).trans ?_
  rw [rowSpread_apply]
  refine congrArg (· + b (ix2 (0 : Fin 1) q)) ?_
  refine (mulf_apply _ _ _).trans ?_
  rw [rowSpread_apply]
  refine congrArg (· * g (ix2 (0 : Fin 1) q)) ?_
  refine (mulf_apply _ _ _).trans ?_
  rw [colSpread_apply]
  refine congrArg₂ (· * ·) ?_ ?_
  · refine (subf_apply _ _ _).trans ?_
    rw [colSpread_apply, meanBlock_apply, sumBlock_eq]
  · show Ideal.rsqrt (k1_pay7 (F := Ideal) x0 We qk Wc bc (ix2 p (0 : Fin 1)) + lnEps) = _
    rw [varBlock_apply]

/-! ## Each row's result depends on that row only -/

/-- The edge message at a row is determined by that row of the edge features and of the gathered projections
    (and by the parameters). -/
theorem edgeMsg_rows {n m : Nat} (conn qk : FVec Ideal (Rows n) .f32) (conn' qk' : FVec Ideal (Rows m) .f32)
    (We Wc We' Wc' : FVec Ideal Sq .bf16) (bc bc' : FVec Ideal Row1 .f32) (r : Fin n) (r' : Fin m) (q : Fin 128)
    (hc : ∀ k : Fin 128, conn (at2 r k) = conn' (at2 r' k)) (hq : ∀ k : Fin 128, qk (at2 r k) = qk' (at2 r' k))
    (hWe : ∀ k j : Fin 128, We (sq2 k j) = We' (sq2 k j)) (hWc : ∀ k j : Fin 128, Wc (sq2 k j) = Wc' (sq2 k j))
    (hbc : ∀ j : Fin 128, bc (row1 j) = bc' (row1 j)) :
    edgeMsg conn qk We Wc bc (at2 r q) = edgeMsg conn' qk' We' Wc' bc' (at2 r' q) := by
  unfold edgeMsg rowLin rowMul
  show (∑ k : Fin 128, max (qk (at2 r k) + ∑ k' : Fin 128, conn (at2 r k') * We (sq2 k' k)) zeroWord * Wc (sq2 k q)) + bc (row1 q)
     = (∑ k : Fin 128, max (qk' (at2 r' k) + ∑ k' : Fin 128, conn' (at2 r' k') * We' (sq2 k' k)) zeroWord * Wc' (sq2 k q)) + bc' (row1 q)
  simp only [hc, hq, hWe, hWc, hbc]

/-- The layer norm at a row is determined by that row (and by the gain and shift rows). -/
theorem layerNorm_rows {n m : Nat} (z : FVec Ideal (Rows n) .f32) (z' : FVec Ideal (Rows m) .f32)
    (g b g' b' : FVec Ideal Row1 .f32) (r : Fin n) (r' : Fin m) (q : Fin 128)
    (hz : ∀ k : Fin 128, z (at2 r k) = z' (at2 r' k))
    (hg : ∀ j : Fin 128, g (row1 j) = g' (row1 j)) (hb : ∀ j : Fin 128, b (row1 j) = b' (row1 j)) :
    layerNorm z g b (at2 r q) = layerNorm z' g' b' (at2 r' q) := by
  have hm : rowMean z r = rowMean z' r' := by unfold rowMean; simp only [hz]
  have hv : rowVar z r = rowVar z' r' := by unfold rowVar; simp only [hz, hm]
  unfold layerNorm
  show ((z (at2 r q) - rowMean z r) * Ideal.rsqrt (rowVar z r + lnEps)) * g (row1 q) + b (row1 q)
     = ((z' (at2 r' q) - rowMean z' r') * Ideal.rsqrt (rowVar z' r' + lnEps)) * g' (row1 q) + b' (row1 q)
  rw [hz q, hm, hv, hg q, hb q]

/-- So is the edge output. -/
theorem edgeOut_rows {n m : Nat} (conn qk : FVec Ideal (Rows n) .f32) (conn' qk' : FVec Ideal (Rows m) .f32)
    (We Wc We' Wc' : FVec Ideal Sq .bf16) (bc bc' g g' b b' : FVec Ideal Row1 .f32) (r : Fin n) (r' : Fin m) (q : Fin 128)
    (hc : ∀ k : Fin 128, conn (at2 r k) = conn' (at2 r' k)) (hq : ∀ k : Fin 128, qk (at2 r k) = qk' (at2 r' k))
    (hWe : ∀ k j : Fin 128, We (sq2 k j) = We' (sq2 k j)) (hWc : ∀ k j : Fin 128, Wc (sq2 k j) = Wc' (sq2 k j))
    (hbc : ∀ j : Fin 128, bc (row1 j) = bc' (row1 j))
    (hg : ∀ j : Fin 128, g (row1 j) = g' (row1 j)) (hb : ∀ j : Fin 128, b (row1 j) = b' (row1 j)) :
    edgeOut conn qk We Wc bc g b (at2 r q) = edgeOut conn' qk' We' Wc' bc' g' b' (at2 r' q) := by
  unfold edgeOut
  refine layerNorm_rows _ _ g b g' b' r r' q (fun k => ?_) hg hb
  show conn (at2 r k) + edgeMsg conn qk We Wc bc (at2 r k) = conn' (at2 r' k) + edgeMsg conn' qk' We' Wc' bc' (at2 r' k)
  rw [hc k, edgeMsg_rows conn qk conn' qk' We Wc We' Wc' bc bc' r r' k hc hq hWe hWc hbc]

/-! ## Where the blocks sit in their arrays -/

variable (V : (c : Dev nD) → (b : Ref sig .tc) → Buf (Elt Ideal) ((c : Thread nD τ).loc b))

theorem zeroOffsets : (![0, 0] : Fin 2 → Nat) = fun _ => 0 := funext fun a => by fin_cases a <;> rfl

/-- The index maps over the 128 grid points: the two row arrays and the two outputs are at block (t, 0) at point t,
    the five parameter windows at block (0, 0) throughout. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

theorem point_lt (t : Fin cfg1.N) : t.val < 128 := lt_of_lt_of_eq t.isLt N_1

/-- Row p of the edge features' block at point t is row 5000·t + p of the array. -/
theorem connBlock_apply (c : Dev nD) (t : Fin cfg1.N) (p : Fin 5000) (k : Fin 128) (h : t.val * 5000 + p.val < 640000) :
    iblk1 (F := Ideal) V c 0 t (ix2 p k) = V c main_arg1 (ix2 (⟨t.val * 5000 + p.val, h⟩ : Fin 640000) k) := by
  obtain ⟨e0, e1, -⟩ := blockIndex t
  show V c main_arg1 (((cfg1.win 0).blk t).view.emb (ix2 p k)) = _
  refine congrArg (V c main_arg1) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- Row p of the gathered projections' block at point t is row 5000·t + p of the array. -/
theorem qkBlock_apply (c : Dev nD) (t : Fin cfg1.N) (p : Fin 5000) (k : Fin 128) (h : t.val * 5000 + p.val < 640000) :
    iblk1 (F := Ideal) V c 1 t (ix2 p k) = V c main_v25 (ix2 (⟨t.val * 5000 + p.val, h⟩ : Fin 640000) k) := by
  obtain ⟨-, -, e0, e1, -⟩ := blockIndex t
  show V c main_v25 (((cfg1.win 1).blk t).view.emb (ix2 p k)) = _
  refine congrArg (V c main_v25) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- The block of Weᵀ is the whole matrix. -/
theorem WeBlock_apply (c : Dev nD) (t : Fin cfg1.N) (k j : Fin 128) :
    iblk1 (F := Ideal) V c 2 t (ix2 k j) = V c main_v9 (ix2 k j) := by
  obtain ⟨-, -, -, -, e0, e1, -⟩ := blockIndex t
  show V c main_v9 (((cfg1.win 2).blk t).view.emb (ix2 k j)) = _
  refine congrArg (V c main_v9) (funext fun a => Fin.ext ?_)
  match a with
  | ⟨0, _⟩ => show win1_2.index t (0 : Fin 2) * 128 + 1 * k.val = k.val; omega
  | ⟨1, _⟩ => show win1_2.index t (1 : Fin 2) * 128 + 1 * j.val = j.val; omega

/-- The block of Wcᵀ is the whole matrix. -/
theorem WcBlock_apply (c : Dev nD) (t : Fin cfg1.N) (k j : Fin 128) :
    iblk1 (F := Ideal) V c 3 t (ix2 k j) = V c main_v11 (ix2 k j) := by
  obtain ⟨-, -, -, -, -, -, e0, e1, -⟩ := blockIndex t
  show V c main_v11 (((cfg1.win 3).blk t).view.emb (ix2 k j)) = _
  refine congrArg (V c main_v11) (funext fun a => Fin.ext ?_)
  match a with
  | ⟨0, _⟩ => show win1_3.index t (0 : Fin 2) * 128 + 1 * k.val = k.val; omega
  | ⟨1, _⟩ => show win1_3.index t (1 : Fin 2) * 128 + 1 * j.val = j.val; omega

/-- The block of the bias row is the whole row. -/
theorem bcBlock_apply (c : Dev nD) (t : Fin cfg1.N) (j : Fin 128) :
    iblk1 (F := Ideal) V c 4 t (ix2 (0 : Fin 1) j) = V c main_v16 (ix2 (0 : Fin 1) j) := by
  obtain ⟨-, -, -, -, -, -, -, -, e0, e1, -⟩ := blockIndex t
  show V c main_v16 (((cfg1.win 4).blk t).view.emb (ix2 (0 : Fin 1) j)) = _
  refine congrArg (V c main_v16) (funext fun a => Fin.ext ?_)
  match a with
  | ⟨0, _⟩ => show win1_4.index t (0 : Fin 2) * 1 + 1 * 0 = 0; omega
  | ⟨1, _⟩ => show win1_4.index t (1 : Fin 2) * 128 + 1 * j.val = j.val; omega

/-- The block of the layer norm's gain row is the whole row. -/
theorem gainBlock_apply (c : Dev nD) (t : Fin cfg1.N) (j : Fin 128) :
    iblk1 (F := Ideal) V c 5 t (ix2 (0 : Fin 1) j) = V c main_v20 (ix2 (0 : Fin 1) j) := by
  obtain ⟨-, -, -, -, -, -, -, -, -, -, e0, e1, -⟩ := blockIndex t
  show V c main_v20 (((cfg1.win 5).blk t).view.emb (ix2 (0 : Fin 1) j)) = _
  refine congrArg (V c main_v20) (funext fun a => Fin.ext ?_)
  match a with
  | ⟨0, _⟩ => show win1_5.index t (0 : Fin 2) * 1 + 1 * 0 = 0; omega
  | ⟨1, _⟩ => show win1_5.index t (1 : Fin 2) * 128 + 1 * j.val = j.val; omega

/-- The block of the layer norm's shift row is the whole row. -/
theorem shiftBlock_apply (c : Dev nD) (t : Fin cfg1.N) (j : Fin 128) :
    iblk1 (F := Ideal) V c 6 t (ix2 (0 : Fin 1) j) = V c main_v21 (ix2 (0 : Fin 1) j) := by
  obtain ⟨-, -, -, -, -, -, -, -, -, -, -, -, e0, e1, -⟩ := blockIndex t
  show V c main_v21 (((cfg1.win 6).blk t).view.emb (ix2 (0 : Fin 1) j)) = _
  refine congrArg (V c main_v21) (funext fun a => Fin.ext ?_)
  match a with
  | ⟨0, _⟩ => show win1_6.index t (0 : Fin 2) * 1 + 1 * 0 = 0; omega
  | ⟨1, _⟩ => show win1_6.index t (1 : Fin 2) * 128 + 1 * j.val = j.val; omega

/-! ## What a point writes back -/

/-- Point t writes back, to the first output, block t of the edge message of the whole arrays. -/
theorem flushed_msg (c : Dev nD) (t : Fin cfg1.N) :
    (dat1 (F := Ideal) V c).flushed 7 t = ((cfg1.win 7).blk t).view.read (Elt Ideal)
      (fun i => edgeMsg (n := 640000) (V c main_arg1) (V c main_v25) (V c main_v9) (V c main_v11) (V c main_v16) i) := by
  show (cfg1.win 7).cut (grid1.coords t) ((dat1 V c).after 7 t) = _
  rw [after1_7]
  unfold out1_7
  rw [View.canon_unit_zero zeroOffsets]
  simp only [View.ld_unit_zero (S := S5000x128) zeroOffsets, View.ld_unit_zero (S := S128x128) zeroOffsets, View.ld_unit_zero (S := S1x128) zeroOffsets]
  funext j
  obtain ⟨p, q, rfl⟩ : ∃ (p : Fin 5000) (q : Fin 128), j = ix2 p q := ⟨j 0, j 1, eq_ix2 j⟩
  have ht := point_lt t
  have hr : t.val * 5000 + p.val < 640000 := by have := p.isLt; omega
  refine (msgBlock_apply (iblk1 V c 0 t) (iblk1 V c 1 t) (iblk1 V c 2 t) (iblk1 V c 3 t) (iblk1 V c 4 t) p q).trans ?_
  obtain ⟨-, -, -, -, -, -, -, -, -, -, -, -, -, -, e0, e1, -⟩ := blockIndex t
  have hemb : ((cfg1.win 7).blk t).view.emb (ix2 p q) = ix2 (⟨t.val * 5000 + p.val, hr⟩ : Fin 640000) q := funext fun a => Fin.ext (by
    match a with
    | ⟨0, _⟩ => show win1_7.index t (0 : Fin 2) * 5000 + 1 * p.val = t.val * 5000 + p.val; omega
    | ⟨1, _⟩ => show win1_7.index t (1 : Fin 2) * 128 + 1 * q.val = q.val; omega)
  show _ = edgeMsg (n := 640000) (V c main_arg1) (V c main_v25) (V c main_v9) (V c main_v11) (V c main_v16) (((cfg1.win 7).blk t).view.emb (ix2 p q))
  rw [hemb]
  exact edgeMsg_rows (iblk1 V c 0 t) (iblk1 V c 1 t) (V c main_arg1) (V c main_v25) (iblk1 V c 2 t) (iblk1 V c 3 t) (V c main_v9) (V c main_v11)
    (iblk1 V c 4 t) (V c main_v16) p ⟨t.val * 5000 + p.val, hr⟩ q
    (fun k => connBlock_apply V c t p k hr) (fun k => qkBlock_apply V c t p k hr)
    (fun k j => WeBlock_apply V c t k j) (fun k j => WcBlock_apply V c t k j) (fun j => bcBlock_apply V c t j)

/-- Point t writes back, to the second output, block t of the edge output of the whole arrays. -/
theorem flushed_out (c : Dev nD) (t : Fin cfg1.N) :
    (dat1 (F := Ideal) V c).flushed 8 t = ((cfg1.win 8).blk t).view.read (Elt Ideal)
      (fun i => edgeOut (n := 640000) (V c main_arg1) (V c main_v25) (V c main_v9) (V c main_v11) (V c main_v16)
        (V c main_v20) (V c main_v21) i) := by
  show (cfg1.win 8).cut (grid1.coords t) ((dat1 V c).after 8 t) = _
  rw [after1_8]
  unfold out1_8
  rw [View.canon_unit_zero zeroOffsets]
  simp only [View.ld_unit_zero (S := S5000x128) zeroOffsets, View.ld_unit_zero (S := S128x128) zeroOffsets, View.ld_unit_zero (S := S1x128) zeroOffsets]
  funext j
  obtain ⟨p, q, rfl⟩ : ∃ (p : Fin 5000) (q : Fin 128), j = ix2 p q := ⟨j 0, j 1, eq_ix2 j⟩
  have ht := point_lt t
  have hr : t.val * 5000 + p.val < 640000 := by have := p.isLt; omega
  refine (outBlock_apply (iblk1 V c 0 t) (iblk1 V c 1 t) (iblk1 V c 2 t) (iblk1 V c 3 t) (iblk1 V c 4 t) (iblk1 V c 5 t) (iblk1 V c 6 t) p q).trans ?_
  obtain ⟨-, -, -, -, -, -, -, -, -, -, -, -, -, -, -, -, e0, e1⟩ := blockIndex t
  have hemb : ((cfg1.win 8).blk t).view.emb (ix2 p q) = ix2 (⟨t.val * 5000 + p.val, hr⟩ : Fin 640000) q := funext fun a => Fin.ext (by
    match a with
    | ⟨0, _⟩ => show win1_8.index t (0 : Fin 2) * 5000 + 1 * p.val = t.val * 5000 + p.val; omega
    | ⟨1, _⟩ => show win1_8.index t (1 : Fin 2) * 128 + 1 * q.val = q.val; omega)
  show _ = edgeOut (n := 640000) (V c main_arg1) (V c main_v25) (V c main_v9) (V c main_v11) (V c main_v16) (V c main_v20) (V c main_v21)
    (((cfg1.win 8).blk t).view.emb (ix2 p q))
  rw [hemb]
  exact edgeOut_rows (iblk1 V c 0 t) (iblk1 V c 1 t) (V c main_arg1) (V c main_v25) (iblk1 V c 2 t) (iblk1 V c 3 t) (V c main_v9) (V c main_v11)
    (iblk1 V c 4 t) (V c main_v16) (iblk1 V c 5 t) (V c main_v20) (iblk1 V c 6 t) (V c main_v21) p ⟨t.val * 5000 + p.val, hr⟩ q
    (fun k => connBlock_apply V c t p k hr) (fun k => qkBlock_apply V c t p k hr)
    (fun k j => WeBlock_apply V c t k j) (fun k j => WcBlock_apply V c t k j) (fun j => bcBlock_apply V c t j)
    (fun j => gainBlock_apply V c t j) (fun j => shiftBlock_apply V c t j)

/-! ## The blocks cover the output arrays -/

/-- An entry of the first output is in point t's block iff each coordinate is in the block's range on its axis. -/
theorem mem_msgBlock (t : Fin cfg1.N) (i : S640000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v26_0).slice (win1_7.rect t)).set ↔ _
  rw [View.set_slice_whole, Rect.mem_set_unit]
  exact Iff.rfl

/-- The same for the second output. -/
theorem mem_outBlock (t : Fin cfg1.N) (i : S640000x128.Idx) :
    i ∈ ((cfg1.win 8).blk t).view.set ↔ ∀ a : Fin 2, win1_8.index t a * S5000x128.size a ≤ (i a).val ∧ (i a).val < win1_8.index t a * S5000x128.size a + S5000x128.size a := by
  show i ∈ ((View.whole main_v26_1).slice (win1_8.rect t)).set ↔ _
  rw [View.set_slice_whole, Rect.mem_set_unit]
  exact Iff.rfl

/-- Row r of the first output lies in the block of point r / 5000. -/
theorem msg_cover (i : S640000x128.Idx) :
    ∃ t : Fin cfg1.N, (cfg1.win 7).flush t = true ∧ i ∈ ((cfg1.win 7).blk t).view.set := by
  have hi0 : (i 0).val < 640000 := (i 0).isLt
  have hi1 : (i 1).val < 128 := (i 1).isLt
  have hN : cfg1.N = 128 := N_1
  have ht : (i 0).val / 5000 < cfg1.N := by rw [hN]; omega
  obtain ⟨-, -, -, -, -, -, -, -, -, -, -, -, -, -, e0, e1, -⟩ := blockIndex ⟨(i 0).val / 5000, ht⟩
  have e0' : win1_7.index ⟨(i 0).val / 5000, ht⟩ (0 : Fin 2) = (i 0).val / 5000 := e0
  refine ⟨⟨(i 0).val / 5000, ht⟩, flush1_7 _, ?_⟩
  rw [mem_msgBlock]
  intro a
  match a with
  | ⟨0, _⟩ =>
    show win1_7.index ⟨(i 0).val / 5000, ht⟩ (0 : Fin 2) * 5000 ≤ (i 0).val ∧ (i 0).val < win1_7.index ⟨(i 0).val / 5000, ht⟩ (0 : Fin 2) * 5000 + 5000
    omega
  | ⟨1, _⟩ =>
    show win1_7.index ⟨(i 0).val / 5000, ht⟩ (1 : Fin 2) * 128 ≤ (i 1).val ∧ (i 1).val < win1_7.index ⟨(i 0).val / 5000, ht⟩ (1 : Fin 2) * 128 + 128
    omega

/-- Row r of the second output lies in the block of point r / 5000. -/
theorem out_cover (i : S640000x128.Idx) :
    ∃ t : Fin cfg1.N, (cfg1.win 8).flush t = true ∧ i ∈ ((cfg1.win 8).blk t).view.set := by
  have hi0 : (i 0).val < 640000 := (i 0).isLt
  have hi1 : (i 1).val < 128 := (i 1).isLt
  have hN : cfg1.N = 128 := N_1
  have ht : (i 0).val / 5000 < cfg1.N := by rw [hN]; omega
  obtain ⟨-, -, -, -, -, -, -, -, -, -, -, -, -, -, -, -, e0, e1⟩ := blockIndex ⟨(i 0).val / 5000, ht⟩
  have e0' : win1_8.index ⟨(i 0).val / 5000, ht⟩ (0 : Fin 2) = (i 0).val / 5000 := e0
  refine ⟨⟨(i 0).val / 5000, ht⟩, flush1_8 _, ?_⟩
  rw [mem_outBlock]
  intro a
  match a with
  | ⟨0, _⟩ =>
    show win1_8.index ⟨(i 0).val / 5000, ht⟩ (0 : Fin 2) * 5000 ≤ (i 0).val ∧ (i 0).val < win1_8.index ⟨(i 0).val / 5000, ht⟩ (0 : Fin 2) * 5000 + 5000
    omega
  | ⟨1, _⟩ =>
    show win1_8.index ⟨(i 0).val / 5000, ht⟩ (1 : Fin 2) * 128 ≤ (i 1).val ∧ (i 1).val < win1_8.index ⟨(i 0).val / 5000, ht⟩ (1 : Fin 2) * 128 + 128
    omega

/-! ## The two output arrays after the region -/

/-- After the edge region, its first output array is the edge message of the arrays the region found. -/
theorem edge_msg (c : Dev nD) :
    (dat1 (F := Ideal) V c).arrAt 7 cfg1.N
      = fun i => edgeMsg (n := 640000) (V c main_arg1) (V c main_v25) (V c main_v9) (V c main_v11) (V c main_v16) i :=
  (dat1 (F := Ideal) V c).arrAt_eq_of_cover 7
    (fun i => edgeMsg (n := 640000) (V c main_arg1) (V c main_v25) (V c main_v9) (V c main_v11) (V c main_v16) i)
    (fun t _ => flushed_msg V c t) msg_cover

/-- After the edge region, its second output array is the layer-normed edge output. -/
theorem edge_out (c : Dev nD) :
    (dat1 (F := Ideal) V c).arrAt 8 cfg1.N
      = fun i => edgeOut (n := 640000) (V c main_arg1) (V c main_v25) (V c main_v9) (V c main_v11) (V c main_v16)
          (V c main_v20) (V c main_v21) i :=
  (dat1 (F := Ideal) V c).arrAt_eq_of_cover 8
    (fun i => edgeOut (n := 640000) (V c main_arg1) (V c main_v25) (V c main_v9) (V c main_v11) (V c main_v16)
        (V c main_v20) (V c main_v21) i)
    (fun t _ => flushed_out V c t) out_cover

end Cert.KernelIdeal.EdgeValue

end
-- ==== Proof.NodeValue.lean ====
/-
  The node kernel: over 25 blocks of 2000 node rows it scales the aggregated messages by degree, projects them,
  adds the node features and layer-norms each row.  Rows are independent and the blocks tile the 50000 rows, so
  the output array is the row-wise map of the whole inputs.
-/
import proofs.«425138_j24824910970958_2_alg».proof.Proof.Gen.KernelIdeal.Frame
import proofs.«425138_j24824910970958_2_alg».proof.Proof.Spec
import Idealize.ShloMosaic.PureOps.Ideal.Laws
import Idealize.ShloMosaic.Lib.Pipeline.Value
import Idealize.ShloMosaic.Lib.ValueLayout
set_option maxRecDepth 16384

noncomputable section

namespace Cert.KernelIdeal.NodeValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphLayer

/-! ## Rows are independent

Every map of the specification reads, at row r, only row r of its row-indexed arguments.  So if row r of
one family of arrays is row R of another, the outputs agree at those rows. -/

section Rows
variable {n m : Nat}

theorem degScale_row (agg : FVec Ideal (Rows n) .f32) (sd : FVec Ideal (Col n) .f32)
    (AGG : FVec Ideal (Rows m) .f32) (SD : FVec Ideal (Col m) .f32) (d0 d1 : FVec Ideal Row1 .f32)
    (r : Fin n) (R : Fin m) (hagg : ∀ k : Fin 128, agg (at2 r k) = AGG (at2 R k)) (hsd : sd (col1 r) = SD (col1 R))
    (k : Fin 128) : degScale agg sd d0 d1 (at2 r k) = degScale AGG SD d0 d1 (at2 R k) := by
  show agg (at2 r k) * d0 (row1 k) + (agg (at2 r k) * sd (col1 r)) * d1 (row1 k)
    = AGG (at2 R k) * d0 (row1 k) + (AGG (at2 R k) * SD (col1 R)) * d1 (row1 k)
  rw [hagg k, hsd]

theorem rowLin_row (z : FVec Ideal (Rows n) .f32) (Z : FVec Ideal (Rows m) .f32) (Wt : FVec Ideal Sq .bf16)
    (b : FVec Ideal Row1 .f32) (r : Fin n) (R : Fin m) (zero_offsets : ∀ k : Fin 128, z (at2 r k) = Z (at2 R k)) (q : Fin 128) :
    rowLin z Wt b (at2 r q) = rowLin Z Wt b (at2 R q) := by
  show (∑ k : Fin 128, z (at2 r k) * Wt (sq2 k q)) + b (row1 q) = (∑ k : Fin 128, Z (at2 R k) * Wt (sq2 k q)) + b (row1 q)
  simp only [zero_offsets]

theorem rowMean_row (z : FVec Ideal (Rows n) .f32) (Z : FVec Ideal (Rows m) .f32) (r : Fin n) (R : Fin m)
    (zero_offsets : ∀ k : Fin 128, z (at2 r k) = Z (at2 R k)) : rowMean z r = rowMean Z R := by
  unfold rowMean
  simp only [zero_offsets]

theorem rowVar_row (z : FVec Ideal (Rows n) .f32) (Z : FVec Ideal (Rows m) .f32) (r : Fin n) (R : Fin m)
    (zero_offsets : ∀ k : Fin 128, z (at2 r k) = Z (at2 R k)) : rowVar z r = rowVar Z R := by
  unfold rowVar
  rw [rowMean_row z Z r R zero_offsets]
  simp only [zero_offsets]

theorem layerNorm_row (z : FVec Ideal (Rows n) .f32) (Z : FVec Ideal (Rows m) .f32) (g b : FVec Ideal Row1 .f32)
    (r : Fin n) (R : Fin m) (zero_offsets : ∀ k : Fin 128, z (at2 r k) = Z (at2 R k)) (q : Fin 128) :
    layerNorm z g b (at2 r q) = layerNorm Z g b (at2 R q) := by
  show ((z (at2 r q) - rowMean z r) * Ideal.rsqrt (rowVar z r + lnEps)) * g (row1 q) + b (row1 q)
    = ((Z (at2 R q) - rowMean Z R) * Ideal.rsqrt (rowVar Z R + lnEps)) * g (row1 q) + b (row1 q)
  rw [zero_offsets q, rowMean_row z Z r R zero_offsets, rowVar_row z Z r R zero_offsets]

theorem nodeOut_row (x agg : FVec Ideal (Rows n) .f32) (sd : FVec Ideal (Col n) .f32)
    (X AGG : FVec Ideal (Rows m) .f32) (SD : FVec Ideal (Col m) .f32)
    (WnT : FVec Ideal Sq .bf16) (bn d0 d1 gh bh : FVec Ideal Row1 .f32) (r : Fin n) (R : Fin m)
    (hx : ∀ k : Fin 128, x (at2 r k) = X (at2 R k)) (hagg : ∀ k : Fin 128, agg (at2 r k) = AGG (at2 R k))
    (hsd : sd (col1 r) = SD (col1 R)) (q : Fin 128) :
    nodeOut x agg sd WnT bn d0 d1 gh bh (at2 r q) = nodeOut X AGG SD WnT bn d0 d1 gh bh (at2 R q) := by
  unfold nodeOut
  refine layerNorm_row _ _ gh bh r R (fun k => ?_) q
  show x (at2 r k) + rowLin (degScale agg sd d0 d1) WnT bn (at2 r k) = X (at2 R k) + rowLin (degScale AGG SD d0 d1) WnT bn (at2 R k)
  rw [hx k, rowLin_row _ _ WnT bn r R (fun k' => degScale_row agg sd AGG SD d0 d1 r R hagg hsd k') k]

end Rows

section Rows2
variable {n m : Nat}

/-- The same with the parameters given twice, as equal arrays. -/
theorem nodeOut_row_of_eq (x agg : FVec Ideal (Rows n) .f32) (sd : FVec Ideal (Col n) .f32)
    (X AGG : FVec Ideal (Rows m) .f32) (SD : FVec Ideal (Col m) .f32)
    (WnT WNT : FVec Ideal Sq .bf16) (bn d0 d1 gh bh BN D0 D1 GH BH : FVec Ideal Row1 .f32) (r : Fin n) (R : Fin m)
    (hx : ∀ k : Fin 128, x (at2 r k) = X (at2 R k)) (hagg : ∀ k : Fin 128, agg (at2 r k) = AGG (at2 R k))
    (hsd : sd (col1 r) = SD (col1 R)) (hW : WnT = WNT) (hbn : bn = BN) (hd0 : d0 = D0) (hd1 : d1 = D1)
    (hgh : gh = GH) (hbh : bh = BH) (q : Fin 128) :
    nodeOut x agg sd WnT bn d0 d1 gh bh (at2 r q) = nodeOut X AGG SD WNT BN D0 D1 GH BH (at2 R q) := by
  subst hW hbn hd0 hd1 hgh hbh
  exact nodeOut_row x agg sd X AGG SD WnT bn d0 d1 gh bh r R hx hagg hsd q

end Rows2

/-! ## The block's arithmetic, read at an index

A block is 2000 rows of 128 lanes.  Each step of the body is read at the index (p, q): pointwise steps read
their operands there, a row vector spread over the rows reads lane q, a column spread over the lanes reads
row p, a sum over the lanes of row p is a sum over the 128 lanes, and the matrix product is the sum over the
contracted lane of the row's entries times the matrix's column. -/

section Block

/-- A column spread over the 128 lanes reads, at (p, q), its entry at row p. -/
theorem colSpread_apply (v : FVec Ideal S2000x1 .f32) (p : Fin 2000) (q : Fin 128) :
    broadcastTo S2000x128 v broadcasts_S2000x1_S2000x128 (ix2 p q) = v (ix2 p (0 : Fin 1)) := by
  refine broadcastTo_apply v broadcasts_S2000x1_S2000x128 (ix2 p q) (ix2 p (0 : Fin 1)) fun ax => ?_
  match ax with
  | ⟨0, _⟩ => rfl
  | ⟨1, _⟩ => rfl

/-- A row spread over the 2000 rows reads, at (p, q), its entry at lane q. -/
theorem rowSpread_apply (v : FVec Ideal S1x128 .f32) (p : Fin 2000) (q : Fin 128) :
    broadcastTo S2000x128 v broadcasts_S1x128_S2000x128 (ix2 p q) = v (ix2 (0 : Fin 1) q) :=
  broadcastTo_1b_ab_apply v broadcasts_S1x128_S2000x128 p q

/-- The sum over the lanes of each row, kept as a column: at row p it is the sum of the row's 128 entries. -/
theorem laneSum_apply (z : FVec Ideal S2000x128 .f32) (p : Fin 2000) (u : Fin 1) :
    shapeCast S2000x1 (multiReduction (F := Ideal) .add [1] S2000 z 0x00000000#32 reduces_S2000x128_S2000 (.inl rfl) rfl)
        shapeCasts_S2000_S2000x1 (ix2 p u)
      = ∑ k : Fin 128, z (ix2 p k) := by
  refine (shapeCast_apply _ shapeCasts_S2000_S2000x1 (ix2 p u) (ix1 p) ?_).trans ?_
  · rw [Shape.rowMajor_val_one, Shape.rowMajor_val_two]
    have hu : u.val = 0 := by omega
    show p.val = p.val * 1 + u.val
    omega
  · refine (Ideal.multiReduction_add_single z 0x00000000#32 reduces_S2000x128_S2000 (.inl rfl) rfl (ix1 p)).trans ?_
    show ∑ k : Fin 128, z (reduces_S2000x128_S2000.lift (ix1 p) k) = ∑ k : Fin 128, z (ix2 p k)
    refine Finset.sum_congr rfl fun k _ => ?_
    exact congrArg z (funext fun a => Fin.ext (by match a with | ⟨0, _⟩ => rfl | ⟨1, _⟩ => rfl))

end Block

section Block2

theorem lhs_node_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_node_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_node_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_node_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The matrix product into a zero accumulator: entry (p, q) is the sum over the contracted lane k of the
    left block's (p, k) times the right matrix's (k, q). -/
theorem product_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_node_0 _ _
    | ⟨1, _⟩ => exact (lhs_node_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_node_0 _ _).trans hk
    | ⟨1, _⟩ => exact rhs_node_1 _ _)
  rw [el, er]

/-- The layer norm's input: the node features plus the projected, degree-scaled aggregate. -/
abbrev preNorm {n : Nat} (x agg : FVec Ideal (Rows n) .f32) (sd : FVec Ideal (Col n) .f32) (WnT : FVec Ideal Sq .bf16)
    (bn d0 d1 : FVec Ideal Row1 .f32) : FVec Ideal (Rows n) .f32 :=
  fun i => x i + rowLin (degScale agg sd d0 d1) WnT bn i

/-- The body's first stage on a block is the layer norm's input of the blocks. -/
theorem stage_preNorm (x0 x1 : FVec Ideal S2000x128 .f32) (x2 : FVec Ideal S2000x1 .f32) (x3 : FVec Ideal S128x128 .bf16)
    (x4 x5 x6 : FVec Ideal S1x128 .f32) :
    k2_pay2 (F := Ideal) x1 x2 x5 x6 x3 x4 x0 = preNorm (n := 2000) x0 x1 x2 x3 x4 x5 x6 := by
  funext j
  obtain ⟨p, q, rfl⟩ : ∃ (p : Fin 2000) (q : Fin 128), j = ix2 p q := ⟨j 0, j 1, eq_ix2 j⟩
  unfold k2_pay2
  simp only [shapeCast_self]
  show _ = x0 (ix2 p q) + ((∑ k : Fin 128, degScale (n := 2000) x1 x2 x5 x6 (ix2 p k) * x3 (ix2 k q)) + x4 (ix2 (0 : Fin 1) q))
  rw [addf_apply, addf_apply, product_apply, rowSpread_apply]
  refine congrArg (x0 (ix2 p q) + ·) (congrArg (· + x4 (ix2 (0 : Fin 1) q)) (Finset.sum_congr rfl fun k _ => ?_))
  rw [truncf_apply, addf_apply, mulf_apply, mulf_apply, mulf_apply, rowSpread_apply, rowSpread_apply, colSpread_apply]
  rfl

end Block2

section Block3

/-- The row means as a column: the lane sums divided by the feature count. -/
theorem stage_mean (x0 x1 : FVec Ideal S2000x128 .f32) (x2 : FVec Ideal S2000x1 .f32) (x3 : FVec Ideal S128x128 .bf16)
    (x4 x5 x6 : FVec Ideal S1x128 .f32) (p : Fin 2000) (u : Fin 1) :
    k2_pay5 (F := Ideal) x1 x2 x5 x6 x3 x4 x0 (ix2 p u) = rowMean (n := 2000) (preNorm x0 x1 x2 x3 x4 x5 x6) p := by
  unfold k2_pay5
  rw [stage_preNorm, divf_apply, laneSum_apply, broadcast_apply]
  rfl

/-- The squared deviations from the row mean, summed over the lanes, as a column (not yet divided by the feature count). -/
theorem stage_sqdev (x0 x1 : FVec Ideal S2000x128 .f32) (x2 : FVec Ideal S2000x1 .f32) (x3 : FVec Ideal S128x128 .bf16)
    (x4 x5 x6 : FVec Ideal S1x128 .f32) (p : Fin 2000) (u : Fin 1) :
    k2_pay6 (F := Ideal) x1 x2 x5 x6 x3 x4 x0 (ix2 p u)
      = ∑ k : Fin 128, (preNorm (n := 2000) x0 x1 x2 x3 x4 x5 x6 (ix2 p k) - rowMean (n := 2000) (preNorm x0 x1 x2 x3 x4 x5 x6) p)
          * (preNorm (n := 2000) x0 x1 x2 x3 x4 x5 x6 (ix2 p k) - rowMean (n := 2000) (preNorm x0 x1 x2 x3 x4 x5 x6) p) := by
  unfold k2_pay6
  rw [laneSum_apply]
  refine Finset.sum_congr rfl fun k _ => ?_
  rw [mulf_apply, subf_apply, colSpread_apply, stage_mean, stage_preNorm]

/-- The last stage: centre by the mean column, scale by the inverse root of the variance (the summed squares
    over the feature count) plus the offset, then gain and shift by the two rows. -/
theorem stage_norm (v23 : FVec Ideal S2000x128 .f32) (v25 v27 : FVec Ideal S1x128 .f32) (v31 v36 : FVec Ideal S2000x1 .f32)
    (p : Fin 2000) (q : Fin 128) :
    k2_pay1 (F := Ideal) v23 v25 v27 v31 v36 (ix2 p q)
      = ((v23 (ix2 p q) - v31 (ix2 p (0 : Fin 1))) * Ideal.rsqrt (Ideal.div (v36 (ix2 p (0 : Fin 1))) featCount + lnEps))
          * v25 (ix2 (0 : Fin 1) q) + v27 (ix2 (0 : Fin 1) q) := by
  unfold k2_pay1
  rw [addf_apply, mulf_apply, mulf_apply, subf_apply, rowSpread_apply, rowSpread_apply, colSpread_apply, colSpread_apply]
  rfl

/-- The body on a block is the node output of the blocks. -/
theorem body_is_nodeOut (x0 x1 : FVec Ideal S2000x128 .f32) (x2 : FVec Ideal S2000x1 .f32) (x3 : FVec Ideal S128x128 .bf16)
    (x4 x5 x6 x7 x8 : FVec Ideal S1x128 .f32) :
    k2_pay1 (F := Ideal) (k2_pay2 x1 x2 x5 x6 x3 x4 x0) (k2_pay3 x7) (k2_pay4 x8) (k2_pay5 x1 x2 x5 x6 x3 x4 x0) (k2_pay6 x1 x2 x5 x6 x3 x4 x0)
      = nodeOut (n := 2000) x0 x1 x2 x3 x4 x5 x6 x7 x8 := by
  funext j
  obtain ⟨p, q, rfl⟩ : ∃ (p : Fin 2000) (q : Fin 128), j = ix2 p q := ⟨j 0, j 1, eq_ix2 j⟩
  rw [stage_norm, stage_mean, stage_sqdev, stage_preNorm]
  unfold k2_pay3 k2_pay4
  simp only [shapeCast_self]
  rfl

end Block3

variable (V : (c : Dev nD) → (b : Ref sig .tc) → Buf (Elt Ideal) ((c : Thread nD τ).loc b))

/-! ## From blocks to the array

Grid point t handles rows 2000·t … 2000·t + 1999: the node features, the aggregate, the degree column and the
output move with t, while the matrix and the five row vectors are whole at every point.  So what point t writes
back is block t of the node output of the whole arrays, and the 25 blocks tile the 50000 rows. -/

section Array

theorem zero_offsets : (![0, 0] : Fin 2 → Nat) = fun _ => 0 := funext fun a => by fin_cases a <;> rfl

/-- The windows' block indices over the 25 grid points: (t, 0) for the four row-blocked windows, (0, 0) for the
    whole ones. -/
theorem block_index : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = t.val ∧ win2_9.index t (1 : Fin 2) = 0) :=
  (by decide +kernel : ∀ t : Fin grid2.N, _)

theorem point_lt (t : Fin cfg2.N) : t.val < 25 := lt_of_lt_of_eq t.isLt N_2

end Array

section Array2

/-- A whole window's block is its array, at every point. -/
theorem matrix_whole (c : Dev nD) (t : Fin cfg2.N) : (iblk2 (F := Ideal) V c 3 t : FVec Ideal S128x128 .bf16) = V c main_v13 := by
  obtain ⟨-, -, -, ⟨f0, f1⟩, -⟩ := block_index t
  funext y
  show V c main_v13 (((cfg2.win 3).blk t).view.emb y) = V c main_v13 y
  refine congrArg _ (funext fun a => Fin.ext ?_)
  match a with
  | ⟨0, _⟩ => show win2_3.index t (0 : Fin 2) * 128 + 1 * (y 0).val = (y 0).val; rw [f0]; omega
  | ⟨1, _⟩ => show win2_3.index t (1 : Fin 2) * 128 + 1 * (y 1).val = (y 1).val; rw [f1]; omega

theorem bias_whole (c : Dev nD) (t : Fin cfg2.N) : (iblk2 (F := Ideal) V c 4 t : FVec Ideal S1x128 .f32) = V c main_v17 := by
  obtain ⟨-, -, -, -, ⟨f0, f1⟩, -⟩ := block_index t
  funext y
  show V c main_v17 (((cfg2.win 4).blk t).view.emb y) = V c main_v17 y
  refine congrArg _ (funext fun a => Fin.ext ?_)
  match a with
  | ⟨0, _⟩ => show win2_4.index t (0 : Fin 2) * 1 + 1 * (y 0).val = (y 0).val; rw [f0]; omega
  | ⟨1, _⟩ => show win2_4.index t (1 : Fin 2) * 128 + 1 * (y 1).val = (y 1).val; rw [f1]; omega

theorem coef0_whole (c : Dev nD) (t : Fin cfg2.N) : (iblk2 (F := Ideal) V c 5 t : FVec Ideal S1x128 .f32) = V c main_v32 := by
  obtain ⟨-, -, -, -, -, ⟨f0, f1⟩, -⟩ := block_index t
  funext y
  show V c main_v32 (((cfg2.win 5).blk t).view.emb y) = V c main_v32 y
  refine congrArg _ (funext fun a => Fin.ext ?_)
  match a with
  | ⟨0, _⟩ => show win2_5.index t (0 : Fin 2) * 1 + 1 * (y 0).val = (y 0).val; rw [f0]; omega
  | ⟨1, _⟩ => show win2_5.index t (1 : Fin 2) * 128 + 1 * (y 1).val = (y 1).val; rw [f1]; omega

theorem coef1_whole (c : Dev nD) (t : Fin cfg2.N) : (iblk2 (F := Ideal) V c 6 t : FVec Ideal S1x128 .f32) = V c main_v35 := by
  obtain ⟨-, -, -, -, -, -, ⟨f0, f1⟩, -⟩ := block_index t
  funext y
  show V c main_v35 (((cfg2.win 6).blk t).view.emb y) = V c main_v35 y
  refine congrArg _ (funext fun a => Fin.ext ?_)
  match a with
  | ⟨0, _⟩ => show win2_6.index t (0 : Fin 2) * 1 + 1 * (y 0).val = (y 0).val; rw [f0]; omega
  | ⟨1, _⟩ => show win2_6.index t (1 : Fin 2) * 128 + 1 * (y 1).val = (y 1).val; rw [f1]; omega

theorem gain_whole (c : Dev nD) (t : Fin cfg2.N) : (iblk2 (F := Ideal) V c 7 t : FVec Ideal S1x128 .f32) = V c main_v18 := by
  obtain ⟨-, -, -, -, -, -, -, ⟨f0, f1⟩, -⟩ := block_index t
  funext y
  show V c main_v18 (((cfg2.win 7).blk t).view.emb y) = V c main_v18 y
  refine congrArg _ (funext fun a => Fin.ext ?_)
  match a with
  | ⟨0, _⟩ => show win2_7.index t (0 : Fin 2) * 1 + 1 * (y 0).val = (y 0).val; rw [f0]; omega
  | ⟨1, _⟩ => show win2_7.index t (1 : Fin 2) * 128 + 1 * (y 1).val = (y 1).val; rw [f1]; omega

theorem shift_whole (c : Dev nD) (t : Fin cfg2.N) : (iblk2 (F := Ideal) V c 8 t : FVec Ideal S1x128 .f32) = V c main_v19 := by
  obtain ⟨-, -, -, -, -, -, -, -, ⟨f0, f1⟩, -⟩ := block_index t
  funext y
  show V c main_v19 (((cfg2.win 8).blk t).view.emb y) = V c main_v19 y
  refine congrArg _ (funext fun a => Fin.ext ?_)
  match a with
  | ⟨0, _⟩ => show win2_8.index t (0 : Fin 2) * 1 + 1 * (y 0).val = (y 0).val; rw [f0]; omega
  | ⟨1, _⟩ => show win2_8.index t (1 : Fin 2) * 128 + 1 * (y 1).val = (y 1).val; rw [f1]; omega

/-- Row p of point t's block of the node features is row 2000·t + p of the array. -/
theorem feat_rows (c : Dev nD) (t : Fin cfg2.N) (p : Fin 2000) (R : Fin 50000) (hR : R.val = t.val * 2000 + p.val) (k : Fin 128) :
    (iblk2 (F := Ideal) V c 0 t : FVec Ideal S2000x128 .f32) (ix2 p k) = V c main_arg0 (ix2 R k) := by
  obtain ⟨⟨f0, f1⟩, -⟩ := block_index t
  show V c main_arg0 (((cfg2.win 0).blk t).view.emb (ix2 p k)) = V c main_arg0 (ix2 R k)
  refine congrArg _ (funext fun a => Fin.ext ?_)
  match a with
  | ⟨0, _⟩ => show win2_0.index t (0 : Fin 2) * 2000 + 1 * p.val = R.val; rw [f0, hR]; omega
  | ⟨1, _⟩ => show win2_0.index t (1 : Fin 2) * 128 + 1 * k.val = k.val; rw [f1]; omega

/-- The same for the aggregate … -/
theorem agg_rows (c : Dev nD) (t : Fin cfg2.N) (p : Fin 2000) (R : Fin 50000) (hR : R.val = t.val * 2000 + p.val) (k : Fin 128) :
    (iblk2 (F := Ideal) V c 1 t : FVec Ideal S2000x128 .f32) (ix2 p k) = V c main_v29 (ix2 R k) := by
  obtain ⟨-, ⟨f0, f1⟩, -⟩ := block_index t
  show V c main_v29 (((cfg2.win 1).blk t).view.emb (ix2 p k)) = V c main_v29 (ix2 R k)
  refine congrArg _ (funext fun a => Fin.ext ?_)
  match a with
  | ⟨0, _⟩ => show win2_1.index t (0 : Fin 2) * 2000 + 1 * p.val = R.val; rw [f0, hR]; omega
  | ⟨1, _⟩ => show win2_1.index t (1 : Fin 2) * 128 + 1 * k.val = k.val; rw [f1]; omega

/-- … and for the degree column. -/
theorem deg_rows (c : Dev nD) (t : Fin cfg2.N) (p : Fin 2000) (R : Fin 50000) (hR : R.val = t.val * 2000 + p.val) :
    (iblk2 (F := Ideal) V c 2 t : FVec Ideal S2000x1 .f32) (ix2 p (0 : Fin 1)) = V c main_arg3 (ix2 R (0 : Fin 1)) := by
  obtain ⟨-, -, ⟨f0, f1⟩, -⟩ := block_index t
  show V c main_arg3 (((cfg2.win 2).blk t).view.emb (ix2 p (0 : Fin 1))) = V c main_arg3 (ix2 R (0 : Fin 1))
  refine congrArg _ (funext fun a => Fin.ext ?_)
  match a with
  | ⟨0, _⟩ => show win2_2.index t (0 : Fin 2) * 2000 + 1 * p.val = R.val; rw [f0, hR]; omega
  | ⟨1, _⟩ => show win2_2.index t (1 : Fin 2) * 1 + 1 * 0 = 0; rw [f1]

end Array2

section Array3

/-- What point t writes back is block t of the node output of the whole arrays. -/
theorem block_written (c : Dev nD) (t : Fin cfg2.N) :
    (dat2 (F := Ideal) V c).flushed 9 t
      = ((cfg2.win 9).blk t).view.read (Elt Ideal) (nodeOut (n := 50000) (V c main_arg0) (V c main_v29) (V c main_arg3) (V c main_v13) (V c main_v17) (V c main_v32) (V c main_v35) (V c main_v18) (V c main_v19)) := by
  show (cfg2.win 9).cut (grid2.coords t) ((dat2 V c).after 9 t) = _
  rw [after2_9]
  unfold out2_9
  rw [View.canon_unit_zero zero_offsets]
  simp only [View.ld_unit_zero (S := S2000x128) zero_offsets, View.ld_unit_zero (S := S2000x1) zero_offsets, View.ld_unit_zero (S := S1x128) zero_offsets, View.ld_unit_zero (S := S128x128) zero_offsets]
  obtain ⟨-, -, -, -, -, -, -, -, -, ⟨f0, f1⟩⟩ := block_index t
  have ht := point_lt t
  funext j
  obtain ⟨p, q, rfl⟩ : ∃ (p : Fin 2000) (q : Fin 128), j = ix2 p q := ⟨j 0, j 1, eq_ix2 j⟩
  have hR : t.val * 2000 + p.val < 50000 := by have := p.isLt; omega
  have hemb : ((cfg2.win 9).blk t).view.emb (ix2 p q) = ix2 (⟨t.val * 2000 + p.val, hR⟩ : Fin 50000) q := by
    funext a; apply Fin.ext
    match a with
    | ⟨0, _⟩ => show win2_9.index t (0 : Fin 2) * 2000 + 1 * p.val = t.val * 2000 + p.val; rw [f0]; omega
    | ⟨1, _⟩ => show win2_9.index t (1 : Fin 2) * 128 + 1 * q.val = q.val; rw [f1]; omega
  show k2_pay1 (F := Ideal) (k2_pay2 (iblk2 V c 1 t) (iblk2 V c 2 t) (iblk2 V c 5 t) (iblk2 V c 6 t) (iblk2 V c 3 t) (iblk2 V c 4 t) (iblk2 V c 0 t)) (k2_pay3 (iblk2 V c 7 t)) (k2_pay4 (iblk2 V c 8 t)) (k2_pay5 (iblk2 V c 1 t) (iblk2 V c 2 t) (iblk2 V c 5 t) (iblk2 V c 6 t) (iblk2 V c 3 t) (iblk2 V c 4 t) (iblk2 V c 0 t)) (k2_pay6 (iblk2 V c 1 t) (iblk2 V c 2 t) (iblk2 V c 5 t) (iblk2 V c 6 t) (iblk2 V c 3 t) (iblk2 V c 4 t) (iblk2 V c 0 t)) (ix2 p q)
    = nodeOut (n := 50000) (V c main_arg0) (V c main_v29) (V c main_arg3) (V c main_v13) (V c main_v17) (V c main_v32) (V c main_v35) (V c main_v18) (V c main_v19) (((cfg2.win 9).blk t).view.emb (ix2 p q))
  rw [hemb]
  refine (congrFun (body_is_nodeOut (iblk2 V c 0 t) (iblk2 V c 1 t) (iblk2 V c 2 t) (iblk2 V c 3 t) (iblk2 V c 4 t) (iblk2 V c 5 t) (iblk2 V c 6 t) (iblk2 V c 7 t) (iblk2 V c 8 t)) (ix2 p q)).trans ?_
  exact nodeOut_row_of_eq (iblk2 V c 0 t) (iblk2 V c 1 t) (iblk2 V c 2 t) (V c main_arg0) (V c main_v29) (V c main_arg3)
    (iblk2 V c 3 t) (V c main_v13) (iblk2 V c 4 t) (iblk2 V c 5 t) (iblk2 V c 6 t) (iblk2 V c 7 t) (iblk2 V c 8 t) (V c main_v17) (V c main_v32) (V c main_v35) (V c main_v18) (V c main_v19)
    p ⟨t.val * 2000 + p.val, hR⟩ (fun k => feat_rows V c t p _ rfl k) (fun k => agg_rows V c t p _ rfl k) (deg_rows V c t p _ rfl)
    (matrix_whole V c t) (bias_whole V c t) (coef0_whole V c t) (coef1_whole V c t) (gain_whole V c t) (shift_whole V c t) q

/-- An index of the array is in point t's block iff each coordinate is in the block's range on its axis. -/
theorem in_block_iff (t : Fin cfg2.N) (i : S50000x128.Idx) :
    i ∈ ((cfg2.win 9).blk t).view.set ↔ ∀ a : Fin 2, win2_9.index t a * S2000x128.size a ≤ (i a).val ∧ (i a).val < win2_9.index t a * S2000x128.size a + S2000x128.size a := by
  show i ∈ ((View.whole main_v36).slice (win2_9.rect t)).set ↔ _
  rw [View.set_slice_whole, Rect.mem_set_unit]
  exact Iff.rfl

/-- Row r lies in the block of point r / 2000: the 25 blocks tile the 50000 rows. -/
theorem rows_tiled (i : S50000x128.Idx) : ∃ t : Fin cfg2.N, (cfg2.win 9).flush t = true ∧ i ∈ ((cfg2.win 9).blk t).view.set := by
  have hi0 : (i 0).val < 50000 := (i 0).isLt
  have hi1 : (i 1).val < 128 := (i 1).isLt
  have hN : cfg2.N = 25 := N_2
  have hlt : (i 0).val / 2000 < cfg2.N := by rw [hN]; omega
  obtain ⟨-, -, -, -, -, -, -, -, -, ⟨f0, f1⟩⟩ := block_index ⟨(i 0).val / 2000, hlt⟩
  refine ⟨⟨(i 0).val / 2000, hlt⟩, flush2_9 _, ?_⟩
  rw [in_block_iff]
  intro a
  match a with
  | ⟨0, _⟩ =>
    show win2_9.index ⟨(i 0).val / 2000, hlt⟩ (0 : Fin 2) * 2000 ≤ (i 0).val ∧ (i 0).val < win2_9.index ⟨(i 0).val / 2000, hlt⟩ (0 : Fin 2) * 2000 + 2000
    rw [f0]; show (i 0).val / 2000 * 2000 ≤ (i 0).val ∧ (i 0).val < (i 0).val / 2000 * 2000 + 2000; omega
  | ⟨1, _⟩ =>
    show win2_9.index ⟨(i 0).val / 2000, hlt⟩ (1 : Fin 2) * 128 ≤ (i 1).val ∧ (i 1).val < win2_9.index ⟨(i 0).val / 2000, hlt⟩ (1 : Fin 2) * 128 + 128
    rw [f1]; omega

end Array3

/-- After the node region, its output array is the node output of the arrays the region found. -/
theorem node_out (c : Dev nD) :
    (dat2 (F := Ideal) V c).arrAt 9 cfg2.N
      = fun i => nodeOut (n := 50000) (V c main_arg0) (V c main_v29) (V c main_arg3) (V c main_v13) (V c main_v17)
          (V c main_v32) (V c main_v35) (V c main_v18) (V c main_v19) i :=
  (dat2 (F := Ideal) V c).arrAt_eq_of_cover 9
    (nodeOut (n := 50000) (V c main_arg0) (V c main_v29) (V c main_arg3) (V c main_v13) (V c main_v17) (V c main_v32) (V c main_v35) (V c main_v18) (V c main_v19))
    (fun t _ => block_written V c t) rows_tiled

end Cert.KernelIdeal.NodeValue

end
-- ==== Proof.RefStages.lean ====
/-
  The reference, stage by stage, is the same mathematics: its node projections are row-linear maps of x, its edge
  message and edge output are the edge maps of conn and the gathered projections, its node output the node map
  of x and the scattered messages.  The gathers and the scatter are left as the reference spells them: both
  programs apply the same ones.
-/
import proofs.«425138_j24824910970958_2_alg».proof.Proof.Gen.ReferenceIdeal.Read
import proofs.«425138_j24824910970958_2_alg».proof.Proof.Spec
import Idealize.ShloMosaic.PureOps.Ideal.Laws
import Idealize.ShloMosaic.Lib.Pipeline.Value

noncomputable section

namespace Cert.ReferenceIdeal.Stages

open Idealize.ShloMosaic Idealize.ShloMosaic.TcCoe Idealize.ShloMosaic.ValueIdx Idealize.SL.Sem
open Cert.ReferenceIdeal Cert.ReferenceIdeal.Read Cert.GraphLayer

variable (x0 : FVec Ideal S50000x128 .f32) (x1 : FVec Ideal S640000x128 .f32) (x2 : IVec S2x640000 32)
  (x3 : FVec Ideal S50000x1 .f32) (x4 : FVec Ideal S128x128 .f32) (x5 : FVec Ideal S128 .f32)
  (x6 : FVec Ideal S128x128 .f32) (x7 : FVec Ideal S128 .f32) (x8 x9 : FVec Ideal S128x128 .f32)
  (x10 : FVec Ideal S128 .f32) (x11 : FVec Ideal S128x128 .f32) (x12 : FVec Ideal S128 .f32)
  (x13 : FVec Ideal S1x128x2 .f32) (x14 x15 x16 x17 : FVec Ideal S128 .f32)

/-- The reference's Q projection is x · Wqᵀ + bq. -/
theorem ref_q : val_main_v10 (F := Ideal) x0 x4 x5 = fun i => rowLin (n := 50000) x0 (transposed x4) (asRow x5) i := by
  funext i
  have el : ∀ k : Fin 128, lidx_main_v7 i k = at2 (n := 50000) (i 0) k := fun k => funext fun a => Fin.ext (by match a with | ⟨0, _⟩ => rfl | ⟨1, _⟩ => rfl)
  have er : ∀ k : Fin 128, idx_main_v6 (ridx_main_v7 i k) = sq2 (i 1) k := fun k => funext fun a => Fin.ext (by match a with | ⟨0, _⟩ => rfl | ⟨1, _⟩ => rfl)
  have eb : idx_main_v8 (idx_main_v9 i) = ix1 (i 1) := funext fun a => Fin.ext (by match a with | ⟨0, _⟩ => rfl)
  rw [val_main_v10_apply, val_main_v7_apply, val_main_v9_apply, val_main_v8_apply, eb]
  simp only [val_main_v6_apply, el, er, Ideal.addf_def]
  rfl

/-- The reference's K projection is x · Wkᵀ + bk. -/
theorem ref_k : val_main_v15 (F := Ideal) x0 x6 x7 = fun i => rowLin (n := 50000) x0 (transposed x6) (asRow x7) i := by
  funext i
  have el : ∀ k : Fin 128, lidx_main_v12 i k = at2 (n := 50000) (i 0) k := fun k => funext fun a => Fin.ext (by match a with | ⟨0, _⟩ => rfl | ⟨1, _⟩ => rfl)
  have er : ∀ k : Fin 128, idx_main_v11 (ridx_main_v12 i k) = sq2 (i 1) k := fun k => funext fun a => Fin.ext (by match a with | ⟨0, _⟩ => rfl | ⟨1, _⟩ => rfl)
  have eb : idx_main_v13 (idx_main_v14 i) = ix1 (i 1) := funext fun a => Fin.ext (by match a with | ⟨0, _⟩ => rfl)
  rw [val_main_v15_apply, val_main_v12_apply, val_main_v14_apply, val_main_v13_apply, eb]
  simp only [val_main_v11_apply, el, er, Ideal.addf_def]
  rfl

/-- Before the output projection: relu of the gathered projections plus conn · Weᵀ. -/
theorem ref_relu :
    val_main_v32 (F := Ideal) x0 x1 x2 x4 x5 x6 x7 x8
      = fun i => max (val_main_v30 (F := Ideal) x0 x2 x4 x5 x6 x7 i + rowMul (n := 640000) x1 (transposed x8) i) zeroWord := by
  funext i
  have el : ∀ k : Fin 128, lidx_main_v5 i k = at2 (n := 640000) (i 0) k := fun k => funext fun a => Fin.ext (by match a with | ⟨0, _⟩ => rfl | ⟨1, _⟩ => rfl)
  have er : ∀ k : Fin 128, idx_main_v4 (ridx_main_v5 i k) = sq2 (i 1) k := fun k => funext fun a => Fin.ext (by match a with | ⟨0, _⟩ => rfl | ⟨1, _⟩ => rfl)
  rw [val_main_v32_apply, val_main_v31_apply, val_main_v5_apply, val_main_call0_v0_apply, val_main_call0_cst_apply]
  generalize val_main_v30 (F := Ideal) x0 x2 x4 x5 x6 x7 = qk
  simp only [val_main_v4_apply, el, er, Ideal.addf_def, Ideal.maximumf_def, Ideal.ofBits_def]
  rfl

/-- The reference's edge message is the edge message of conn and the sum of its two gathers. -/
theorem ref_edge_msg :
    val_main_v37 (F := Ideal) x0 x1 x2 x4 x5 x6 x7 x8 x9 x10
      = fun i => edgeMsg (n := 640000) x1 (val_main_v30 (F := Ideal) x0 x2 x4 x5 x6 x7) (transposed x8) (transposed x9) (asRow x10) i := by
  funext i
  have el : ∀ k : Fin 128, lidx_main_v34 i k = at2 (n := 640000) (i 0) k := fun k => funext fun a => Fin.ext (by match a with | ⟨0, _⟩ => rfl | ⟨1, _⟩ => rfl)
  have er : ∀ k : Fin 128, idx_main_v33 (ridx_main_v34 i k) = sq2 (i 1) k := fun k => funext fun a => Fin.ext (by match a with | ⟨0, _⟩ => rfl | ⟨1, _⟩ => rfl)
  have eb : idx_main_v35 (idx_main_v36 i) = ix1 (i 1) := funext fun a => Fin.ext (by match a with | ⟨0, _⟩ => rfl)
  rw [val_main_v37_apply, val_main_v34_apply, val_main_v36_apply, val_main_v35_apply, eb, ref_relu]
  generalize val_main_v30 (F := Ideal) x0 x2 x4 x5 x6 x7 = qk
  simp only [val_main_v33_apply, el, er, Ideal.addf_def]
  rfl

/-- The edge features plus their message, the value the edge layer norm is taken of. -/
theorem ref_edge_sum :
    val_main_v55 (F := Ideal) x0 x1 x2 x4 x5 x6 x7 x8 x9 x10
      = fun i => x1 i + edgeMsg (n := 640000) x1 (val_main_v30 (F := Ideal) x0 x2 x4 x5 x6 x7) (transposed x8) (transposed x9) (asRow x10) i := by
  funext i
  rw [val_main_v55_apply, ref_edge_msg]
  rfl

/-- The reference's column of edge row means: entry r is the mean of row r. -/
theorem edge_mean (r : Fin 640000) :
    val_main_v83 (F := Ideal) x0 x1 x2 x4 x5 x6 x7 x8 x9 x10 (col1 r) = rowMean (n := 640000) (val_main_v55 (F := Ideal) x0 x1 x2 x4 x5 x6 x7 x8 x9 x10) r := by
  have e : ∀ k : Fin 128, idx_main_v80 (idx_main_v81 (col1 r)) k = at2 r k := fun k => funext fun a => Fin.ext (by match a with | ⟨0, _⟩ => rfl | ⟨1, _⟩ => rfl)
  rw [val_main_v83_apply, val_main_v81_apply, val_main_v80_apply, val_main_v82_apply, val_main_cst_10_apply,
    val_main_cst_9_apply]
  generalize val_main_v55 (F := Ideal) x0 x1 x2 x4 x5 x6 x7 x8 x9 x10 = z
  simp only [e, Ideal.hostDivf_def, Ideal.ofBits_def, Ideal.ofBits_zero_f32, zero_add]
  rfl

/-- The reference's column of edge row variances: entry r is the mean squared deviation of row r. -/
theorem edge_var (r : Fin 640000) :
    val_main_v90 (F := Ideal) x0 x1 x2 x4 x5 x6 x7 x8 x9 x10 (col1 r) = rowVar (n := 640000) (val_main_v55 (F := Ideal) x0 x1 x2 x4 x5 x6 x7 x8 x9 x10) r := by
  have e : ∀ k : Fin 128, idx_main_v87 (idx_main_v88 (col1 r)) k = at2 r k := fun k => funext fun a => Fin.ext (by match a with | ⟨0, _⟩ => rfl | ⟨1, _⟩ => rfl)
  have ec : ∀ k : Fin 128, idx_main_v84 (at2 (n := 640000) r k) = col1 r := fun k => funext fun a => Fin.ext (by match a with | ⟨0, _⟩ => rfl | ⟨1, _⟩ => rfl)
  rw [val_main_v90_apply, val_main_v88_apply, val_main_v87_apply, val_main_v89_apply, val_main_cst_12_apply,
    val_main_cst_11_apply]
  simp only [e, val_main_v86_apply, val_main_v85_apply, val_main_v84_apply, ec, edge_mean]
  generalize val_main_v55 (F := Ideal) x0 x1 x2 x4 x5 x6 x7 x8 x9 x10 = z
  simp only [Ideal.hostDivf_def, Ideal.subf_def, Ideal.mulf_def, Ideal.ofBits_def, Ideal.ofBits_zero_f32, zero_add]
  rfl

/-- The reference's last edge stages are the layer norm of the edge features plus their message. -/
theorem edge_norm :
    val_main_v103 (F := Ideal) x0 x1 x2 x4 x5 x6 x7 x8 x9 x10 x16 x17
      = fun i => layerNorm (n := 640000) (val_main_v55 (F := Ideal) x0 x1 x2 x4 x5 x6 x7 x8 x9 x10) (asRow x16) (asRow x17) i := by
  funext i
  have em : idx_main_v91 i = col1 (n := 640000) (i 0) := funext fun a => Fin.ext (by match a with | ⟨0, _⟩ => rfl | ⟨1, _⟩ => rfl)
  have es : idx_main_v96 i = col1 (n := 640000) (i 0) := funext fun a => Fin.ext (by match a with | ⟨0, _⟩ => rfl | ⟨1, _⟩ => rfl)
  have eg : idx_main_v98 (idx_main_v99 i) = ix1 (i 1) := funext fun a => Fin.ext (by match a with | ⟨0, _⟩ => rfl)
  have eb : idx_main_v101 (idx_main_v102 i) = ix1 (i 1) := funext fun a => Fin.ext (by match a with | ⟨0, _⟩ => rfl)
  rw [val_main_v103_apply, val_main_v100_apply, val_main_v97_apply, val_main_v92_apply, val_main_v91_apply, em,
    val_main_v96_apply, es, val_main_v95_apply, val_main_v94_apply, val_main_v93_apply, val_main_cst_13_apply,
    val_main_v99_apply, val_main_v98_apply, eg, val_main_v102_apply, val_main_v101_apply, eb,
    edge_mean x0 x1 x2 x4 x5 x6 x7 x8 x9 x10 (i 0), edge_var x0 x1 x2 x4 x5 x6 x7 x8 x9 x10 (i 0)]
  generalize val_main_v55 (F := Ideal) x0 x1 x2 x4 x5 x6 x7 x8 x9 x10 = z
  simp only [Ideal.addf_def, Ideal.mulf_def, Ideal.subf_def, Ideal.hostUnary_rsqrt_def, Ideal.ofBits_def]
  rfl

/-- The reference's edge output is the layer-normed edge output. -/
theorem ref_edge_out :
    val_main_v103 (F := Ideal) x0 x1 x2 x4 x5 x6 x7 x8 x9 x10 x16 x17
      = fun i => edgeOut (n := 640000) x1 (val_main_v30 (F := Ideal) x0 x2 x4 x5 x6 x7) (transposed x8) (transposed x9) (asRow x10)
          (asRow x16) (asRow x17) i := by
  rw [edge_norm, ref_edge_sum]
  rfl

/-- Coordinate 0 of the joined last axis holds the scattered messages themselves. -/
theorem node_cat_fst (i : S50000x128.Idx) :
    val_main_v45 (F := Ideal) x0 x1 x2 x3 x4 x5 x6 x7 x8 x9 x10 (idx_main_v48 i 0)
      = val_main_v40 (F := Ideal) x0 x1 x2 x4 x5 x6 x7 x8 x9 x10 i := by
  have e : idx_main_v43 (ix3 (n0 := 50000) (n1 := 128) (i 0) (i 1) (0 : Fin 1)) = i := funext fun a => Fin.ext (by match a with | ⟨0, _⟩ => rfl | ⟨1, _⟩ => rfl)
  unfold val_main_v45
  refine (concatenate_pair_apply_left (s₁ := S50000x128x1) (s₂ := S50000x128x1) _ _ _ _ (idx_main_v48 i 0) rfl (ix3 (n0 := 50000) (n1 := 128) (i 0) (i 1) (0 : Fin 1))
    (fun b => match b with | ⟨0, _⟩ => rfl | ⟨1, _⟩ => rfl | ⟨2, _⟩ => rfl)).trans ?_
  rw [val_main_v43_apply, e]

/-- Coordinate 1 of the joined last axis holds the scattered messages times the square-root degree. -/
theorem node_cat_snd (i : S50000x128.Idx) :
    val_main_v45 (F := Ideal) x0 x1 x2 x3 x4 x5 x6 x7 x8 x9 x10 (idx_main_v48 i 1)
      = val_main_v40 (F := Ideal) x0 x1 x2 x4 x5 x6 x7 x8 x9 x10 i * x3 (col1 (n := 50000) (i 0)) := by
  have e : idx_main_v44 (ix3 (n0 := 50000) (n1 := 128) (i 0) (i 1) (0 : Fin 1)) = i := funext fun a => Fin.ext (by match a with | ⟨0, _⟩ => rfl | ⟨1, _⟩ => rfl)
  have ed : idx_main_v41 i = col1 (n := 50000) (i 0) := funext fun a => Fin.ext (by match a with | ⟨0, _⟩ => rfl | ⟨1, _⟩ => rfl)
  unfold val_main_v45
  refine (concatenate_pair_apply_right (s₁ := S50000x128x1) (s₂ := S50000x128x1) _ _ _ _ (idx_main_v48 i 1) rfl rfl (ix3 (n0 := 50000) (n1 := 128) (i 0) (i 1) (0 : Fin 1))
    (fun b => match b with | ⟨0, _⟩ => fun _ => rfl | ⟨1, _⟩ => fun _ => rfl | ⟨2, _⟩ => fun h => absurd rfl h) rfl).trans ?_
  rw [val_main_v44_apply, e, val_main_v42_apply, val_main_v41_apply, ed]
  rfl

/-- The reference's degree scaling: agg · d₀ + (agg · sqrt_deg) · d₁, feature by feature. -/
theorem node_deg :
    val_main_v48 (F := Ideal) x0 x1 x2 x3 x4 x5 x6 x7 x8 x9 x10 x13
      = fun i => degScale (n := 50000) (val_main_v40 (F := Ideal) x0 x1 x2 x4 x5 x6 x7 x8 x9 x10) x3 (degCoef x13 0) (degCoef x13 1) i := by
  funext i
  have e0 : idx_main_v46 (idx_main_v48 i 0) = ix3 (0 : Fin 1) (i 1) (0 : Fin 2) := funext fun a => Fin.ext (by match a with | ⟨0, _⟩ => rfl | ⟨1, _⟩ => rfl | ⟨2, _⟩ => rfl)
  have e1 : idx_main_v46 (idx_main_v48 i 1) = ix3 (0 : Fin 1) (i 1) (1 : Fin 2) := funext fun a => Fin.ext (by match a with | ⟨0, _⟩ => rfl | ⟨1, _⟩ => rfl | ⟨2, _⟩ => rfl)
  rw [val_main_v48_apply, val_main_cst_3_apply, Fin.sum_univ_two]
  simp only [val_main_v47_apply, val_main_v46_apply]
  rw [e0, e1, node_cat_fst, node_cat_snd]
  generalize val_main_v40 (F := Ideal) x0 x1 x2 x4 x5 x6 x7 x8 x9 x10 = agg
  simp only [Ideal.mulf_def, Ideal.ofBits_def, Ideal.ofBits_zero_f32, zero_add]
  rfl

/-- The node features plus the projected, degree-scaled aggregate, the value the node layer norm is taken of. -/
theorem node_sum :
    val_main_v54 (F := Ideal) x0 x1 x2 x3 x4 x5 x6 x7 x8 x9 x10 x11 x12 x13
      = fun i => x0 i + rowLin (n := 50000)
          (degScale (val_main_v40 (F := Ideal) x0 x1 x2 x4 x5 x6 x7 x8 x9 x10) x3 (degCoef x13 0) (degCoef x13 1)) (transposed x11) (asRow x12) i := by
  funext i
  have el : ∀ k : Fin 128, lidx_main_v50 i k = at2 (n := 50000) (i 0) k := fun k => funext fun a => Fin.ext (by match a with | ⟨0, _⟩ => rfl | ⟨1, _⟩ => rfl)
  have er : ∀ k : Fin 128, idx_main_v49 (ridx_main_v50 i k) = sq2 (i 1) k := fun k => funext fun a => Fin.ext (by match a with | ⟨0, _⟩ => rfl | ⟨1, _⟩ => rfl)
  have eb : idx_main_v51 (idx_main_v52 i) = ix1 (i 1) := funext fun a => Fin.ext (by match a with | ⟨0, _⟩ => rfl)
  rw [val_main_v54_apply, val_main_v53_apply, val_main_v50_apply, val_main_v52_apply, val_main_v51_apply, eb, node_deg]
  generalize val_main_v40 (F := Ideal) x0 x1 x2 x4 x5 x6 x7 x8 x9 x10 = agg
  simp only [val_main_v49_apply, el, er, Ideal.addf_def]
  rfl

/-- The reference's column of node row means: entry r is the mean of row r. -/
theorem node_mean (r : Fin 50000) :
    val_main_v59 (F := Ideal) x0 x1 x2 x3 x4 x5 x6 x7 x8 x9 x10 x11 x12 x13 (col1 r) = rowMean (n := 50000) (val_main_v54 (F := Ideal) x0 x1 x2 x3 x4 x5 x6 x7 x8 x9 x10 x11 x12 x13) r := by
  have e : ∀ k : Fin 128, idx_main_v56 (idx_main_v57 (col1 r)) k = at2 r k := fun k => funext fun a => Fin.ext (by match a with | ⟨0, _⟩ => rfl | ⟨1, _⟩ => rfl)
  rw [val_main_v59_apply, val_main_v57_apply, val_main_v56_apply, val_main_v58_apply, val_main_cst_5_apply,
    val_main_cst_4_apply]
  generalize val_main_v54 (F := Ideal) x0 x1 x2 x3 x4 x5 x6 x7 x8 x9 x10 x11 x12 x13 = z
  simp only [e, Ideal.hostDivf_def, Ideal.ofBits_def, Ideal.ofBits_zero_f32, zero_add]
  rfl

/-- The reference's column of node row variances: entry r is the mean squared deviation of row r. -/
theorem node_var (r : Fin 50000) :
    val_main_v66 (F := Ideal) x0 x1 x2 x3 x4 x5 x6 x7 x8 x9 x10 x11 x12 x13 (col1 r) = rowVar (n := 50000) (val_main_v54 (F := Ideal) x0 x1 x2 x3 x4 x5 x6 x7 x8 x9 x10 x11 x12 x13) r := by
  have e : ∀ k : Fin 128, idx_main_v63 (idx_main_v64 (col1 r)) k = at2 r k := fun k => funext fun a => Fin.ext (by match a with | ⟨0, _⟩ => rfl | ⟨1, _⟩ => rfl)
  have ec : ∀ k : Fin 128, idx_main_v60 (at2 (n := 50000) r k) = col1 r := fun k => funext fun a => Fin.ext (by match a with | ⟨0, _⟩ => rfl | ⟨1, _⟩ => rfl)
  rw [val_main_v66_apply, val_main_v64_apply, val_main_v63_apply, val_main_v65_apply, val_main_cst_7_apply,
    val_main_cst_6_apply]
  simp only [e, val_main_v62_apply, val_main_v61_apply, val_main_v60_apply, ec, node_mean]
  generalize val_main_v54 (F := Ideal) x0 x1 x2 x3 x4 x5 x6 x7 x8 x9 x10 x11 x12 x13 = z
  simp only [Ideal.hostDivf_def, Ideal.subf_def, Ideal.mulf_def, Ideal.ofBits_def, Ideal.ofBits_zero_f32, zero_add]
  rfl

/-- The reference's last node stages are the layer norm of the node features plus the projected aggregate. -/
theorem node_norm :
    val_main_v79 (F := Ideal) x0 x1 x2 x3 x4 x5 x6 x7 x8 x9 x10 x11 x12 x13 x14 x15
      = fun i => layerNorm (n := 50000) (val_main_v54 (F := Ideal) x0 x1 x2 x3 x4 x5 x6 x7 x8 x9 x10 x11 x12 x13) (asRow x14) (asRow x15) i := by
  funext i
  have em : idx_main_v67 i = col1 (n := 50000) (i 0) := funext fun a => Fin.ext (by match a with | ⟨0, _⟩ => rfl | ⟨1, _⟩ => rfl)
  have es : idx_main_v72 i = col1 (n := 50000) (i 0) := funext fun a => Fin.ext (by match a with | ⟨0, _⟩ => rfl | ⟨1, _⟩ => rfl)
  have eg : idx_main_v74 (idx_main_v75 i) = ix1 (i 1) := funext fun a => Fin.ext (by match a with | ⟨0, _⟩ => rfl)
  have eb : idx_main_v77 (idx_main_v78 i) = ix1 (i 1) := funext fun a => Fin.ext (by match a with | ⟨0, _⟩ => rfl)
  rw [val_main_v79_apply, val_main_v76_apply, val_main_v73_apply, val_main_v68_apply, val_main_v67_apply, em,
    val_main_v72_apply, es, val_main_v71_apply, val_main_v70_apply, val_main_v69_apply, val_main_cst_8_apply,
    val_main_v75_apply, val_main_v74_apply, eg, val_main_v78_apply, val_main_v77_apply, eb,
    node_mean x0 x1 x2 x3 x4 x5 x6 x7 x8 x9 x10 x11 x12 x13 (i 0), node_var x0 x1 x2 x3 x4 x5 x6 x7 x8 x9 x10 x11 x12 x13 (i 0)]
  generalize val_main_v54 (F := Ideal) x0 x1 x2 x3 x4 x5 x6 x7 x8 x9 x10 x11 x12 x13 = z
  simp only [Ideal.addf_def, Ideal.mulf_def, Ideal.subf_def, Ideal.hostUnary_rsqrt_def, Ideal.ofBits_def]
  rfl

/-- The reference's node output is the node output of x and its scattered messages. -/
theorem ref_node_out :
    val_main_v79 (F := Ideal) x0 x1 x2 x3 x4 x5 x6 x7 x8 x9 x10 x11 x12 x13 x14 x15
      = fun i => nodeOut (n := 50000) x0 (val_main_v40 (F := Ideal) x0 x1 x2 x4 x5 x6 x7 x8 x9 x10) x3 (transposed x11) (asRow x12)
          (degCoef x13 0) (degCoef x13 1) (asRow x14) (asRow x15) i := by
  rw [node_norm, node_sum]
  rfl

end Cert.ReferenceIdeal.Stages

end
-- ==== Proof.TakeValue.lean ====
/-
  Reading a table at in-range row indices.  The kernel's program reads Q and K rows with a guarded take: it moves
  a negative index up by the table's 50000 rows, gathers, and replaces the row by a fill value wherever the moved
  index is outside 0 … 49999.  For indices that are node indices nothing is moved and nothing is replaced: the
  guarded take is the plain gather.  Also here: the two rows of the edge list, as the program slices them, hold
  node indices whenever the whole list does.
-/
import proofs.«425138_j24824910970958_2_alg».proof.KernelIdeal
import proofs.«425138_j24824910970958_2_alg».proof.Proof.Gen.KernelIdeal
import Idealize.ShloMosaic.Lib.ReduceAll
import Idealize.ShloMosaic.Lib.StableHlo.Predicate
import Idealize.ShloMosaic.Lib.ValueIdx
import Idealize.ShloMosaic.Lib.Pipeline.Value

noncomputable section

namespace Cert.KernelIdeal.TakeValue

open Idealize.ShloMosaic Idealize.ShloMosaic.ValueIdx Cert.KernelIdeal
open Facts₀ Facts

variable [Facts]

/-- Row `r` (0: destinations, 1: sources) of the edge list as the program slices and flattens it. -/
def dstRow (a2 : IVec S2x640000 32) : IVec S640000 32 :=
  shapeCast S640000 (extractStridedSlice S1x640000 ![0, 0] a2 slices_S2x640000_S1x640000_0_0) shapeCasts_S1x640000_S640000
def srcRow (a2 : IVec S2x640000 32) : IVec S640000 32 :=
  shapeCast S640000 (extractStridedSlice S1x640000 ![1, 0] a2 slices_S2x640000_S1x640000_1_0) shapeCasts_S1x640000_S640000

/-- The index column a gather is given: a negative entry moved up by 50000, laid out as one column. -/
def wrapCol (e : IVec S640000 32) : IVec S640000x1 32 :=
  broadcastInDim S640000x1 ![0] bcast_S640000_S640000x1_0
    (select (cmpi .slt e (broadcastInDim S640000 ![] bcast_S_S640000 (constantI S_ 32 0#32)))
      (addi e (broadcastInDim S640000 ![] bcast_S_S640000 (constantI S_ 32 50000#32))) e)

/-- The guarded take of the kernel's program, as one term of the table and the index vector. -/
def guardedTake (tbl : FVec Ideal S50000x128 .f32) (e : IVec S640000 32) : FVec Ideal S640000x128 .f32 :=
  select
    (broadcastInDim S640000x128 ![0] bcast_S640000_S640000x128_0
      (Host.reduce IntOp.andi
        (andi (cmpi .sge (wrapCol e) (broadcastInDim S640000x1 ![] bcast_S_S640000x1 (constantI S_ 32 0#32)))
              (cmpi .sle (wrapCol e) (broadcastInDim S640000x1 ![0, 1] bcast_S1x1_S640000x1_0_1
                (broadcastInDim S1x1 ![1] bcast_S1_S1x1_1 (constantI S1 32 49999#32)))))
        (constantI S_ 1 1#1) reducesTo_S640000x1_S640000_d1 h_S_))
    (Host.gather gather_S50000x128_S640000x1_S640000x128_1_0_n_n_0_1_1128 tbl (wrapCol e))
    (broadcastInDim S640000x128 ![] bcast_S_S640000x128 (constant (F := Ideal) S_ .f32 0x7FC00000#32))

/-- A word is a node index: read signed it lies in 0 … 49999. -/
private def InRange (w : BitVec 32) : Prop := 0 ≤ w.toInt ∧ w.toInt < 50000

/-- Whatever holds of every entry of a vector holds of every entry of its broadcast: a broadcast entry is an
    entry of the operand. -/
private theorem broadcastInDim_forall {s t : Shape} {α : Type} (P : α → Prop) (dims : Fin s.rank → Fin t.rank)
    (h : s.BroadcastsInDim t dims) (x : s.Idx → α) (hx : ∀ k, P (x k)) (j : t.Idx) : P (broadcastInDim t dims h x j) :=
  hx _

/-- A conjunction of ones, started at one, is one. -/
private theorem foldl_andi_ones {ι : Type} (f : ι → BitVec 1) (hf : ∀ n, f n = 1#1) :
    ∀ l : List ι, l.foldl (fun r n => IntOp.andi r (f n)) 1#1 = 1#1
  | [] => rfl
  | a :: l => by
    show l.foldl (fun r n => IntOp.andi r (f n)) (IntOp.andi 1#1 (f a)) = 1#1
    rw [hf a, show IntOp.andi 1#1 1#1 = (1#1 : BitVec 1) from by decide]
    exact foldl_andi_ones f hf l

/-- The conjunction along any axes of a vector of ones, started at one, is one everywhere. -/
private theorem reduce_andi_of_all_one {s t u : Shape} {axes : List (Fin s.rank)} (x : s.Idx → BitVec 1)
    (init : u.Idx → BitVec 1) (h : s.ReducesTo axes t) (hu : 0 < u.numel) (hx : ∀ i, x i = 1#1)
    (hinit : ∀ k, init k = 1#1) (j : t.Idx) : Host.reduce IntOp.andi x init h hu j = 1#1 := by
  rw [Host.reduce_eq_foldl, hinit]
  exact foldl_andi_ones x hx _

/-- A word that is not negative is left where it is by the wrap. -/
private theorem wrap_word (w : BitVec 32) (h0 : 0 ≤ w.toInt) :
    Scalar.select (IntOp.cmpi .slt w 0#32) (IntOp.addi w 50000#32) w = w := by
  have hn : ¬ IntOp.cmpi .slt w 0#32 = 1#1 := by
    rw [IntOp.cmpi_slt, show (0#32 : BitVec 32).toInt = 0 from by decide]; omega
  rw [eq_zero_of_ne_one hn, select_zero]

/-- Every entry of the index column built from node indices is a node index: the wrap moves none of them, and the
    column's entries are the vector's. -/
private theorem wrapCol_inRange (e : IVec S640000 32) (he : ∀ i : S640000.Idx, 0 ≤ (e i).toInt ∧ (e i).toInt < 50000)
    (i : S640000x1.Idx) : InRange (wrapCol e i) :=
  broadcastInDim_forall InRange _ _ _ (fun k => by
    show InRange (Scalar.select (IntOp.cmpi .slt (e k) 0#32) (IntOp.addi (e k) 50000#32) (e k))
    rw [wrap_word _ (he k).1]; exact he k) i

/-- The guard's two tests hold of every entry of that column. -/
private theorem guard_col (e : IVec S640000 32) (he : ∀ i : S640000.Idx, 0 ≤ (e i).toInt ∧ (e i).toInt < 50000)
    (i : S640000x1.Idx) :
    IntOp.andi (IntOp.cmpi .sge (wrapCol e i) 0#32) (IntOp.cmpi .sle (wrapCol e i) 49999#32) = 1#1 := by
  obtain ⟨h0, h1⟩ := wrapCol_inRange e he i
  rw [IntOp.andi_eq_one, IntOp.cmpi_sge, IntOp.cmpi_sle, show (0#32 : BitVec 32).toInt = 0 from by decide,
    show (49999#32 : BitVec 32).toInt = 49999 from by decide]
  exact ⟨h0, by omega⟩

/-- A select whose condition bit is one at an index reads its first operand there. -/
private theorem select_of_one {s : Shape} {α : Type} (c : IVec s 1) (a b : s.Idx → α) (j : s.Idx) (hc : c j = 1#1) :
    select c a b j = a j := by
  rw [select_apply, hc, select_one]

/-- At node indices the guarded take is the plain gather. -/
theorem guardedTake_eq_gather (tbl : FVec Ideal S50000x128 .f32) (e : IVec S640000 32)
    (he : ∀ i : S640000.Idx, 0 ≤ (e i).toInt ∧ (e i).toInt < 50000) :
    guardedTake tbl e = Host.gather gather_S50000x128_S640000x1_S640000x128_1_0_n_n_0_1_1128 tbl (wrapCol e) := by
  funext j
  unfold guardedTake
  -- the guard bit at j is an entry of the row-wise conjunction of the two tests, and every test holds
  exact select_of_one _ _ _ j (broadcastInDim_forall (fun b : BitVec 1 => b = 1#1) _ _ _
    (fun k => reduce_andi_of_all_one _ _ _ _ (guard_col e he) (fun _ => rfl) k) j)

/-- The destination row of an edge list of node indices holds node indices. -/
theorem dstRow_inRange (a2 : IVec S2x640000 32) (h : ∀ i : S2x640000.Idx, 0 ≤ (a2 i).toInt ∧ (a2 i).toInt < 50000) :
    ∀ i : S640000.Idx, 0 ≤ (dstRow a2 i).toInt ∧ (dstRow a2 i).toInt < 50000 := by
  intro i
  -- a slice and a reshape move entries without changing them: the entry is an entry of the edge list
  unfold dstRow shapeCast extractStridedSlice
  exact h _

/-- The source row of an edge list of node indices holds node indices. -/
theorem srcRow_inRange (a2 : IVec S2x640000 32) (h : ∀ i : S2x640000.Idx, 0 ≤ (a2 i).toInt ∧ (a2 i).toInt < 50000) :
    ∀ i : S640000.Idx, 0 ≤ (srcRow a2 i).toInt ∧ (srcRow a2 i).toInt < 50000 := by
  intro i
  -- a slice and a reshape move entries without changing them: the entry is an entry of the edge list
  unfold srcRow shapeCast extractStridedSlice
  exact h _

end Cert.KernelIdeal.TakeValue

end
-- ==== Proof.Boundary.lean ====
/-
  What the parameter buffers hold when each kernel region is entered.  The host program around the kernels only
  re-lays parameters out: each weight matrix is transposed (and narrowed, which changes nothing on the extended
  reals), each bias and layer-norm vector becomes one row, the two degree coefficients are sliced out of their
  array, the edge list is cut into its destination and source rows.  No later step writes those buffers, so at
  every later segment boundary they still hold those values, and the argument arrays what they held at launch.
-/
import proofs.«425138_j24824910970958_2_alg».proof.Proof.Gen.KernelIdeal.Frame
import proofs.«425138_j24824910970958_2_alg».proof.Proof.Spec
import proofs.«425138_j24824910970958_2_alg».proof.Proof.TakeValue
import Idealize.ShloMosaic.Lib.StableHlo.Run
import Idealize.ShloMosaic.Lib.Pipeline.Value
import Idealize.ShloMosaic.Lib.ValueLayout

set_option maxRecDepth 16384

noncomputable section

namespace Cert.KernelIdeal.Boundary

open Idealize.ShloMosaic Idealize.ShloMosaic.TcCoe Idealize.ShloMosaic.ValueIdx Idealize.SL.Sem
open Cert.KernelIdeal Cert.KernelIdeal.Gen Cert.GraphLayer Cert.KernelIdeal.TakeValue

variable (m : (ℓ : Loc nD τ sig) → Buf (Elt Ideal) ℓ) (ρ : Dev nD → PrngReg) (c : Dev nD)

/-! ## The three re-layouts, read index by index -/

/-- A square matrix transposed, then narrowed (which changes nothing on the extended reals), reads entry (j, k) at
    the matrix's entry (k, j). -/
private theorem transpose_narrow_eq (W : FVec Ideal S128x128 .f32) (h : S128x128.Transposes [1, 0] S128x128)
    (h' : FTy.bits .bf16 < FTy.bits .f32) :
    (truncf .bf16 (transpose S128x128 [1, 0] W h) h' : FVec Ideal S128x128 .bf16) = transposed W := by
  funext i
  obtain ⟨p, q, rfl⟩ : ∃ (p : Fin 128) (q : Fin 128), i = ix2 p q := ⟨i 0, i 1, eq_ix2 i⟩
  exact transpose_ix2_apply W h p q

/-- A vector of 128 entries laid out as one row reads entry (0, j) at the vector's entry j. -/
private theorem row_eq (b : FVec Ideal S128 .f32) (h : S128.ShapeCasts S1x128) :
    (shapeCast S1x128 b h : FVec Ideal S1x128 .f32) = asRow b := by
  funext i
  obtain ⟨u, q, rfl⟩ : ∃ (u : Fin 1) (q : Fin 128), i = ix2 u q := ⟨i 0, i 1, eq_ix2 i⟩
  exact shapeCast_a_1a_apply b h u q

/-- Coefficient k sliced out of the [1, 128, 2] array, flattened and laid out as one row, reads entry (0, j) at the
    array's entry (0, j, k). -/
private theorem coef_eq (dc : FVec Ideal S1x128x2 .f32) (k : Fin 2) (h : S1x128x2.Slices ![0, 0, k.val] S1x128x1)
    (h' : S1x128x1.ShapeCasts S128) (h'' : S128.ShapeCasts S1x128) :
    (shapeCast S1x128 (shapeCast S128 (extractStridedSlice S1x128x1 ![0, 0, k.val] dc h) h') h'' : FVec Ideal S1x128 .f32)
      = degCoef dc k := by
  funext i
  obtain ⟨u, q, rfl⟩ : ∃ (u : Fin 1) (q : Fin 128), i = ix2 u q := ⟨i 0, i 1, eq_ix2 i⟩
  rw [shapeCast_a_1a_apply _ h'' u q]
  rw [shapeCast_apply _ h' (ix1 q) (ix3 (0 : Fin 1) q (0 : Fin 1)) (by
    rw [Shape.rowMajor_val_three, Shape.rowMajor_val_one]
    show (0 * 128 + q.val) * 1 + 0 = q.val
    omega)]
  exact extractStridedSlice_apply _ dc h _ (ix3 (0 : Fin 1) q k) fun a => by
    match a with
    | ⟨0, _⟩ => rfl
    | ⟨1, _⟩ => exact (Nat.zero_add _).symm
    | ⟨2, _⟩ => rfl

/-! ## What each host stretch writes, and that it leaves every other buffer -/

/-- The buffers the first host stretch writes: the edge rows and the re-laid parameters. -/
private def written0 : List (Ref sig .tc) :=
  [main_v0, main_v1, main_v2, main_v3, main_v4, main_v5, main_v6, main_v7, main_v8, main_v9, main_v10, main_v11,
   main_v12, main_v13, main_v14, main_v15, main_v16, main_v17, main_v18, main_v19, main_v20, main_v21]
/-- The buffers the first take writes. -/
private def written1 : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v23]
/-- The buffers the second take writes. -/
private def written1_1 : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v24]
/-- The buffers the host stretch before the node region writes: the scatter's operands and result, the two degree
    coefficients. -/
private def written2 : List (Ref sig .tc) :=
  [main_cst, main_v27, main_v28, main_v29, main_v30, main_v31, main_v32, main_v33, main_v34, main_v35]

private theorem keep0 (W : Valuation τ sig (Elt Ideal)) (b : Ref sig .tc) (hb : ∀ y ∈ written0, b ≠ y) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

private theorem keep1 (W : Valuation τ sig (Elt Ideal)) (b : Ref sig .tc) (hb : ∀ y ∈ written1, b ≠ y) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

private theorem keep1_1 (W : Valuation τ sig (Elt Ideal)) (b : Ref sig .tc) (hb : ∀ y ∈ written1_1, b ≠ y) :
    StableHlo.after hostOps1_1 W (Proc.devRef .tc b) = W (Proc.devRef .tc b) :=
  StableHlo.after_of_forall_not_mem (b := Proc.devRef .tc b) _ _ (List.forall_iff_forall_mem.mp (by
    simp only [hostOps1_1, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

private theorem keep1_2 (W : Valuation τ sig (Elt Ideal)) (b : Ref sig .tc) (hb : b ≠ main_v25) :
    StableHlo.after hostOps1_2 W (Proc.devRef .tc b) = W (Proc.devRef .tc b) :=
  StableHlo.after_of_forall_not_mem (b := Proc.devRef .tc b) _ _ (List.forall_iff_forall_mem.mp (by
    simp only [hostOps1_2, List.Forall, StableHlo.binary_writes, Finset.mem_singleton]
    exact StableHlo.devRef_ne_of_ne hb))

private theorem keep2 (W : Valuation τ sig (Elt Ideal)) (b : Ref sig .tc) (hb : ∀ y ∈ written2, b ≠ y) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

/-! ## Walking a buffer back through the fold -/

/-- The two takes and the sum of what they gathered leave a buffer they do not write as the projection region left it. -/
private theorem W5_eq_W2 (b : Ref sig .tc) (h1 : ∀ y ∈ written1, b ≠ y) (h11 : ∀ y ∈ written1_1, b ≠ y) (h12 : b ≠ main_v25) :
    W5 m ρ c (Proc.devRef .tc b) = W2 m ρ c (Proc.devRef .tc b) :=
  (keep1_2 _ b h12).trans ((keep1_1 _ b h11).trans (keep1 _ b h1))

/-- A buffer that is no window of the projection region and that the takes do not write is, entering the edge region,
    as it was entering the projection region. -/
private theorem W5_eq_W1 (b : Ref sig .tc) (h0 : ∀ w, Pipeline.arrRef spec0 w ≠ b) (h1 : ∀ y ∈ written1, b ≠ y)
    (h11 : ∀ y ∈ written1_1, b ≠ y) (h12 : b ≠ main_v25) :
    W5 m ρ c (Proc.devRef .tc b) = W1 m ρ c (Proc.devRef .tc b) :=
  (W5_eq_W2 m ρ c b h1 h11 h12).trans (W2_of_ne m ρ c b h0)

/-- The same through the edge region and the host stretch after it, for a buffer that is no window of the edge region
    either and that the stretch does not write. -/
private theorem W7_eq_W1 (b : Ref sig .tc) (h0 : ∀ w, Pipeline.arrRef spec0 w ≠ b) (h1 : ∀ y ∈ written1, b ≠ y)
    (h11 : ∀ y ∈ written1_1, b ≠ y) (h12 : b ≠ main_v25) (hr : ∀ w, Pipeline.arrRef spec1 w ≠ b)
    (h2 : ∀ y ∈ written2, b ≠ y) :
    W7 m ρ c (Proc.devRef .tc b) = W1 m ρ c (Proc.devRef .tc b) :=
  (keep2 _ b h2).trans ((W6_of_ne m ρ c b hr).trans (W5_eq_W1 m ρ c b h0 h1 h11 h12))

/-! ## What the first host stretch leaves in the buffers it writes -/

private theorem W1_v1 : W1 m ρ c (Proc.devRef .tc main_v1) = dstRow (m ((c : Thread nD τ).loc main_arg2)) := by
  show StableHlo.after hostOps0 _ (Proc.devRef .tc main_v1) = _
  after_results
  rfl
private theorem W1_v3 : W1 m ρ c (Proc.devRef .tc main_v3) = srcRow (m ((c : Thread nD τ).loc main_arg2)) := by
  show StableHlo.after hostOps0 _ (Proc.devRef .tc main_v3) = _
  after_results
  rfl

private theorem W1_v5 : W1 m ρ c (Proc.devRef .tc main_v5) = transposed (m ((c : Thread nD τ).loc main_arg4)) := by
  refine Eq.trans ?_ (transpose_narrow_eq _ Facts₀.transposes_S128x128_S128x128_1_0 Facts₀.bitsLt_bf16_f32)
  show StableHlo.after hostOps0 _ (Proc.devRef .tc main_v5) = _
  after_results
private theorem W1_v7 : W1 m ρ c (Proc.devRef .tc main_v7) = transposed (m ((c : Thread nD τ).loc main_arg6)) := by
  refine Eq.trans ?_ (transpose_narrow_eq _ Facts₀.transposes_S128x128_S128x128_1_0 Facts₀.bitsLt_bf16_f32)
  show StableHlo.after hostOps0 _ (Proc.devRef .tc main_v7) = _
  after_results
private theorem W1_v9 : W1 m ρ c (Proc.devRef .tc main_v9) = transposed (m ((c : Thread nD τ).loc main_arg8)) := by
  refine Eq.trans ?_ (transpose_narrow_eq _ Facts₀.transposes_S128x128_S128x128_1_0 Facts₀.bitsLt_bf16_f32)
  show StableHlo.after hostOps0 _ (Proc.devRef .tc main_v9) = _
  after_results
private theorem W1_v11 : W1 m ρ c (Proc.devRef .tc main_v11) = transposed (m ((c : Thread nD τ).loc main_arg9)) := by
  refine Eq.trans ?_ (transpose_narrow_eq _ Facts₀.transposes_S128x128_S128x128_1_0 Facts₀.bitsLt_bf16_f32)
  show StableHlo.after hostOps0 _ (Proc.devRef .tc main_v11) = _
  after_results
private theorem W1_v13 : W1 m ρ c (Proc.devRef .tc main_v13) = transposed (m ((c : Thread nD τ).loc main_arg11)) := by
  refine Eq.trans ?_ (transpose_narrow_eq _ Facts₀.transposes_S128x128_S128x128_1_0 Facts₀.bitsLt_bf16_f32)
  show StableHlo.after hostOps0 _ (Proc.devRef .tc main_v13) = _
  after_results
private theorem W1_v14 : W1 m ρ c (Proc.devRef .tc main_v14) = asRow (m ((c : Thread nD τ).loc main_arg5)) := by
  refine Eq.trans ?_ (row_eq _ Facts₀.shapeCasts_S128_S1x128)
  show StableHlo.after hostOps0 _ (Proc.devRef .tc main_v14) = _
  after_results
  rfl
private theorem W1_v15 : W1 m ρ c (Proc.devRef .tc main_v15) = asRow (m ((c : Thread nD τ).loc main_arg7)) := by
  refine Eq.trans ?_ (row_eq _ Facts₀.shapeCasts_S128_S1x128)
  show StableHlo.after hostOps0 _ (Proc.devRef .tc main_v15) = _
  after_results
  rfl
private theorem W1_v16 : W1 m ρ c (Proc.devRef .tc main_v16) = asRow (m ((c : Thread nD τ).loc main_arg10)) := by
  refine Eq.trans ?_ (row_eq _ Facts₀.shapeCasts_S128_S1x128)
  show StableHlo.after hostOps0 _ (Proc.devRef .tc main_v16) = _
  after_results
  rfl
private theorem W1_v17 : W1 m ρ c (Proc.devRef .tc main_v17) = asRow (m ((c : Thread nD τ).loc main_arg12)) := by
  refine Eq.trans ?_ (row_eq _ Facts₀.shapeCasts_S128_S1x128)
  show StableHlo.after hostOps0 _ (Proc.devRef .tc main_v17) = _
  after_results
  rfl
private theorem W1_v18 : W1 m ρ c (Proc.devRef .tc main_v18) = asRow (m ((c : Thread nD τ).loc main_arg14)) := by
  refine Eq.trans ?_ (row_eq _ Facts₀.shapeCasts_S128_S1x128)
  show StableHlo.after hostOps0 _ (Proc.devRef .tc main_v18) = _
  after_results
  rfl
private theorem W1_v19 : W1 m ρ c (Proc.devRef .tc main_v19) = asRow (m ((c : Thread nD τ).loc main_arg15)) := by
  refine Eq.trans ?_ (row_eq _ Facts₀.shapeCasts_S128_S1x128)
  show StableHlo.after hostOps0 _ (Proc.devRef .tc main_v19) = _
  after_results
  rfl
private theorem W1_v20 : W1 m ρ c (Proc.devRef .tc main_v20) = asRow (m ((c : Thread nD τ).loc main_arg16)) := by
  refine Eq.trans ?_ (row_eq _ Facts₀.shapeCasts_S128_S1x128)
  show StableHlo.after hostOps0 _ (Proc.devRef .tc main_v20) = _
  after_results
  rfl
private theorem W1_v21 : W1 m ρ c (Proc.devRef .tc main_v21) = asRow (m ((c : Thread nD τ).loc main_arg17)) := by
  refine Eq.trans ?_ (row_eq _ Facts₀.shapeCasts_S128_S1x128)
  show StableHlo.after hostOps0 _ (Proc.devRef .tc main_v21) = _
  after_results
  rfl

/-! ## Entering the projection region (boundary 1) -/

theorem V1_arg0 : V1 m ρ c main_arg0 = (m ((c : Thread nD τ).loc main_arg0)) :=
  keep0 _ main_arg0 (by decide)
theorem V1_v5 : V1 m ρ c main_v5 = transposed (m ((c : Thread nD τ).loc main_arg4)) := W1_v5 m ρ c
theorem V1_v14 : V1 m ρ c main_v14 = asRow (m ((c : Thread nD τ).loc main_arg5)) := W1_v14 m ρ c
theorem V1_v7 : V1 m ρ c main_v7 = transposed (m ((c : Thread nD τ).loc main_arg6)) := W1_v7 m ρ c
theorem V1_v15 : V1 m ρ c main_v15 = asRow (m ((c : Thread nD τ).loc main_arg7)) := W1_v15 m ρ c

/-! ## The edge list's rows where the two takes and the scatter read them (boundaries 2, 3 and 6) -/

theorem W2_v1 : W2 m ρ c (Proc.devRef .tc main_v1) = dstRow (m ((c : Thread nD τ).loc main_arg2)) :=
  (W2_of_ne m ρ c main_v1 (by decide)).trans (W1_v1 m ρ c)
theorem W3_v3 : W3 m ρ c (Proc.devRef .tc main_v3) = srcRow (m ((c : Thread nD τ).loc main_arg2)) :=
  (keep1 _ main_v3 (by decide)).trans ((W2_of_ne m ρ c main_v3 (by decide)).trans (W1_v3 m ρ c))
theorem W6_v1 : W6 m ρ c (Proc.devRef .tc main_v1) = dstRow (m ((c : Thread nD τ).loc main_arg2)) :=
  (W6_of_ne m ρ c main_v1 (by decide)).trans ((W5_eq_W1 m ρ c main_v1 (by decide) (by decide) (by decide) (by decide)).trans (W1_v1 m ρ c))

/-- The second take reads the K projection where the projection region left it: the first take wrote elsewhere. -/
theorem W3_v22_1 : W3 m ρ c (Proc.devRef .tc main_v22_1) = W2 m ρ c (Proc.devRef .tc main_v22_1) :=
  keep1 _ main_v22_1 (by decide)

/-! ## Entering the edge region (boundary 5) -/

theorem V5_arg1 : V5 m ρ c main_arg1 = (m ((c : Thread nD τ).loc main_arg1)) :=
  (W5_eq_W1 m ρ c main_arg1 (by decide) (by decide) (by decide) (by decide)).trans (keep0 _ main_arg1 (by decide))
theorem V5_v9 : V5 m ρ c main_v9 = transposed (m ((c : Thread nD τ).loc main_arg8)) :=
  (W5_eq_W1 m ρ c main_v9 (by decide) (by decide) (by decide) (by decide)).trans (W1_v9 m ρ c)
theorem V5_v11 : V5 m ρ c main_v11 = transposed (m ((c : Thread nD τ).loc main_arg9)) :=
  (W5_eq_W1 m ρ c main_v11 (by decide) (by decide) (by decide) (by decide)).trans (W1_v11 m ρ c)
theorem V5_v16 : V5 m ρ c main_v16 = asRow (m ((c : Thread nD τ).loc main_arg10)) :=
  (W5_eq_W1 m ρ c main_v16 (by decide) (by decide) (by decide) (by decide)).trans (W1_v16 m ρ c)
theorem V5_v20 : V5 m ρ c main_v20 = asRow (m ((c : Thread nD τ).loc main_arg16)) :=
  (W5_eq_W1 m ρ c main_v20 (by decide) (by decide) (by decide) (by decide)).trans (W1_v20 m ρ c)
theorem V5_v21 : V5 m ρ c main_v21 = asRow (m ((c : Thread nD τ).loc main_arg17)) :=
  (W5_eq_W1 m ρ c main_v21 (by decide) (by decide) (by decide) (by decide)).trans (W1_v21 m ρ c)

/-! ## Entering the node region (boundary 7) -/

/-- The node features are the projection region's first input: a region leaves its inputs as it found them. -/
theorem V7_arg0 : V7 m ρ c main_arg0 = (m ((c : Thread nD τ).loc main_arg0)) :=
  (keep2 _ main_arg0 (by decide)).trans ((W6_of_ne m ρ c main_arg0 (by decide)).trans ((W5_eq_W2 m ρ c main_arg0 (by decide) (by decide) (by decide)).trans
    (((W2_arr m ρ c 0).trans (((dat0 (V1 m ρ) c).arrAt_in 0 rfl _).trans (A_eq0 (V1 m ρ) c 0))).trans
      (keep0 _ main_arg0 (by decide)))))
theorem V7_arg3 : V7 m ρ c main_arg3 = (m ((c : Thread nD τ).loc main_arg3)) :=
  (W7_eq_W1 m ρ c main_arg3 (by decide) (by decide) (by decide) (by decide) (by decide) (by decide)).trans (keep0 _ main_arg3 (by decide))
theorem V7_v13 : V7 m ρ c main_v13 = transposed (m ((c : Thread nD τ).loc main_arg11)) :=
  (W7_eq_W1 m ρ c main_v13 (by decide) (by decide) (by decide) (by decide) (by decide) (by decide)).trans (W1_v13 m ρ c)
theorem V7_v17 : V7 m ρ c main_v17 = asRow (m ((c : Thread nD τ).loc main_arg12)) :=
  (W7_eq_W1 m ρ c main_v17 (by decide) (by decide) (by decide) (by decide) (by decide) (by decide)).trans (W1_v17 m ρ c)

/-- The degree scaler's array, where the host stretch before the node region slices it: as launched. -/
private theorem W6_arg13 : W6 m ρ c (Proc.devRef .tc main_arg13) = m ((c : Thread nD τ).loc main_arg13) :=
  (W6_of_ne m ρ c main_arg13 (by decide)).trans ((W5_eq_W1 m ρ c main_arg13 (by decide) (by decide) (by decide) (by decide)).trans (keep0 _ main_arg13 (by decide)))

theorem V7_v32 : V7 m ρ c main_v32 = degCoef (m ((c : Thread nD τ).loc main_arg13)) 0 := by
  refine Eq.trans ?_ (coef_eq _ 0 Facts₀.slices_S1x128x2_S1x128x1_0_0_0 Facts₀.shapeCasts_S1x128x1_S128 Facts₀.shapeCasts_S128_S1x128)
  show StableHlo.after hostOps2 _ (Proc.devRef .tc main_v32) = _
  after_results
  rw [W6_arg13]
  rfl
theorem V7_v35 : V7 m ρ c main_v35 = degCoef (m ((c : Thread nD τ).loc main_arg13)) 1 := by
  refine Eq.trans ?_ (coef_eq _ 1 Facts₀.slices_S1x128x2_S1x128x1_0_0_1 Facts₀.shapeCasts_S1x128x1_S128 Facts₀.shapeCasts_S128_S1x128)
  show StableHlo.after hostOps2 _ (Proc.devRef .tc main_v35) = _
  after_results
  rw [W6_arg13]
  rfl
theorem V7_v18 : V7 m ρ c main_v18 = asRow (m ((c : Thread nD τ).loc main_arg14)) :=
  (W7_eq_W1 m ρ c main_v18 (by decide) (by decide) (by decide) (by decide) (by decide) (by decide)).trans (W1_v18 m ρ c)
theorem V7_v19 : V7 m ρ c main_v19 = asRow (m ((c : Thread nD τ).loc main_arg15)) :=
  (W7_eq_W1 m ρ c main_v19 (by decide) (by decide) (by decide) (by decide) (by decide) (by decide)).trans (W1_v19 m ρ c)

/-! ## The edge output, from the edge region's exit to the last boundary (8) -/

/-- The node region and the host steps after the edge region leave the edge output where the edge region wrote it. -/
theorem W8_v26_1 : W8 m ρ c (Proc.devRef .tc main_v26_1) = W6 m ρ c (Proc.devRef .tc main_v26_1) :=
  (W8_of_ne m ρ c main_v26_1 (by decide)).trans (keep2 _ main_v26_1 (by decide))

end Cert.KernelIdeal.Boundary

end
-- ==== Proof.HostSteps.lean ====
/-
  The host steps between the kernel regions, each read as one function of the buffers it finds: the two guarded
  takes, their sum, the scatter-add of the edge messages over the destination nodes, and the final
  concatenation of the node and edge outputs.
-/
import proofs.«425138_j24824910970958_2_alg».proof.Proof.Gen.KernelIdeal.Frame
import proofs.«425138_j24824910970958_2_alg».proof.Proof.TakeValue
import Idealize.ShloMosaic.Lib.StableHlo.Run

set_option maxRecDepth 16384

noncomputable section

namespace Cert.KernelIdeal.HostSteps

open Idealize.ShloMosaic Idealize.ShloMosaic.TcCoe Idealize.ShloMosaic.ValueIdx Idealize.SL.Sem Idealize.ShloMosaic.StableHlo
open Cert.KernelIdeal Cert.KernelIdeal.Gen
open Cert.KernelIdeal.TakeValue

variable (W : Valuation τ sig (Elt Ideal))

set_option maxHeartbeats 4000000 in
/-- The first take leaves in its result buffer the guarded take of the Q table at the destination row. -/
theorem take_q_of :
    (StableHlo.after (hostOps1 (F := Ideal)) W (Proc.devRef .tc main_v23) : FVec Ideal S640000x128 .f32)
      = guardedTake (W (Proc.devRef .tc main_v22_0)) (W (Proc.devRef .tc main_v1)) := by
  after_results_simp
  try simp only [TRef.ofBuf, TRef.toBuf, cast_eq]
  unfold guardedTake wrapCol
  rfl

set_option maxHeartbeats 4000000 in
/-- The second take leaves the guarded take of the K table at the source row. -/
theorem take_k_of :
    (StableHlo.after (hostOps1_1 (F := Ideal)) W (Proc.devRef .tc main_v24) : FVec Ideal S640000x128 .f32)
      = guardedTake (W (Proc.devRef .tc main_v22_1)) (W (Proc.devRef .tc main_v3)) := by
  after_results_simp
  try simp only [TRef.ofBuf, TRef.toBuf, cast_eq]
  unfold guardedTake wrapCol
  rfl

/-- The second take writes nothing into the first take's result. -/
theorem take_q_kept_of :
    StableHlo.after (hostOps1_1 (F := Ideal)) W (Proc.devRef .tc main_v23) = W (Proc.devRef .tc main_v23) :=
  StableHlo.after_of_forall_not_mem (b := Proc.devRef .tc main_v23) _ _ (List.forall_iff_forall_mem.mp (by
    simp only [hostOps1_1, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide)))

/-- The sum of the two takes. -/
theorem sum_of :
    (StableHlo.after (hostOps1_2 (F := Ideal)) W (Proc.devRef .tc main_v25) : FVec Ideal S640000x128 .f32)
      = addf (F := Ideal) (s := S640000x128) (φ := .f32) (W (Proc.devRef .tc main_v23)) (W (Proc.devRef .tc main_v24)) := by
  after_results

/-- The scatter-add: from zero, every edge's message row accumulated into its destination node's row. -/
theorem agg_of :
    (StableHlo.after (hostOps2 (F := Ideal)) W (Proc.devRef .tc main_v29) : FVec Ideal S50000x128 .f32)
      = Host.scatterAdd scatter_S50000x128_S640000x1_S640000x128_1_0_0_1
          (broadcastInDim S50000x128 ![] bcast_S_S50000x128 (constant (F := Ideal) S_ .f32 0x00000000#32))
          (broadcastInDim S640000x1 ![0] bcast_S640000_S640000x1_0 (W (Proc.devRef .tc main_v1)))
          (W (Proc.devRef .tc main_v26_0)) := by
  after_results

/-- The result: the node output's rows followed by the edge output's rows. -/
theorem result_of :
    (StableHlo.after (hostOps3 (F := Ideal)) W (Proc.devRef .tc main_v37) : FVec Ideal S690000x128 .f32)
      = concatenate S690000x128 0 [⟨S50000x128, W (Proc.devRef .tc main_v36)⟩,
          ⟨S640000x128, W (Proc.devRef .tc main_v26_1)⟩] concatenates_S50000x128_S640000x128_S690000x128_d0 := by
  after_results

end Cert.KernelIdeal.HostSteps

end
-- ==== Proof.Whole.lean ====
/-
  The kernel program's result, boundary by boundary, is the reference's stage of the same arguments.

  Walking the program's segments: the projection region leaves Q and K, which are the reference's projections;
  the two guarded takes of Q and K rows, at an edge list of node indices, are the reference's plain gathers, so
  their sum is the reference's gathered sum; the edge region leaves the edge message and the edge output, which
  are the reference's; the scatter-add of the message over the destination nodes is the same operation on the
  same operands as the reference's; the node region leaves the node output, which is the reference's; and the
  final concatenation joins the same two arrays.
-/
import proofs.«425138_j24824910970958_2_alg».proof.Proof.Gen.KernelIdeal.Frame
import proofs.«425138_j24824910970958_2_alg».proof.Proof.Gen.ReferenceIdeal.Read
import proofs.«425138_j24824910970958_2_alg».proof.Proof.Spec
import proofs.«425138_j24824910970958_2_alg».proof.Proof.ProjValue
import proofs.«425138_j24824910970958_2_alg».proof.Proof.EdgeValue
import proofs.«425138_j24824910970958_2_alg».proof.Proof.NodeValue
import proofs.«425138_j24824910970958_2_alg».proof.Proof.RefStages
import proofs.«425138_j24824910970958_2_alg».proof.Proof.TakeValue
import proofs.«425138_j24824910970958_2_alg».proof.Proof.Boundary
import proofs.«425138_j24824910970958_2_alg».proof.Proof.HostSteps
import Idealize.ShloMosaic.Lib.StableHlo.Run

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen Cert.GraphLayer
open Cert.KernelIdeal.TakeValue Cert.KernelIdeal.Boundary
open Cert.KernelIdeal.ProjValue Cert.KernelIdeal.EdgeValue Cert.KernelIdeal.NodeValue
open Cert.ReferenceIdeal.Read Cert.ReferenceIdeal.Stages Cert.KernelIdeal.HostSteps

variable (m : (ℓ : Loc nD τ sig) → Buf (Elt Ideal) ℓ) (ρ : Dev nD → PrngReg) (c : Dev nD)

/-- The Q projection the first region leaves is the reference's. -/
theorem q_eq : W2 m ρ c (Proc.devRef .tc main_v22_0) = val_main_v10 (F := Ideal) (m ((c : Thread nD τ).loc main_arg0)) (m ((c : Thread nD τ).loc main_arg4)) (m ((c : Thread nD τ).loc main_arg5)) := by
  refine (W2_arr m ρ c 5).trans ?_
  rw [proj_q (V1 m ρ) c, V1_arg0, V1_v5, V1_v14, ref_q]

/-- The K projection the first region leaves is the reference's. -/
theorem k_eq : W2 m ρ c (Proc.devRef .tc main_v22_1) = val_main_v15 (F := Ideal) (m ((c : Thread nD τ).loc main_arg0)) (m ((c : Thread nD τ).loc main_arg6)) (m ((c : Thread nD τ).loc main_arg7)) := by
  refine (W2_arr m ρ c 6).trans ?_
  rw [proj_k (V1 m ρ) c, V1_arg0, V1_v7, V1_v15, ref_k]

/-- The first guarded take, as the program's host operations spell it. -/
theorem take_q : W3 m ρ c (Proc.devRef .tc main_v23)
    = guardedTake (W2 m ρ c (Proc.devRef .tc main_v22_0)) (W2 m ρ c (Proc.devRef .tc main_v1)) :=
  take_q_of (W2 m ρ c)

/-- The second guarded take. -/
theorem take_k : W4 m ρ c (Proc.devRef .tc main_v24)
    = guardedTake (W3 m ρ c (Proc.devRef .tc main_v22_1)) (W3 m ρ c (Proc.devRef .tc main_v3)) :=
  take_k_of (W3 m ρ c)

/-- The second take leaves the first take's result in place. -/
theorem take_q_kept : W4 m ρ c (Proc.devRef .tc main_v23) = W3 m ρ c (Proc.devRef .tc main_v23) :=
  StableHlo.after_of_forall_not_mem (b := Proc.devRef .tc main_v23) _ _ (List.forall_iff_forall_mem.mp (by
    simp only [hostOps1_1, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide)))

/-- The sum of the two takes, at an edge list of node indices, is the reference's sum of its two gathers. -/
theorem qk_eq (hin : ∀ i : S2x640000.Idx, 0 ≤ ((m ((c : Thread nD τ).loc main_arg2)) i).toInt ∧ ((m ((c : Thread nD τ).loc main_arg2)) i).toInt < 50000) :
    W5 m ρ c (Proc.devRef .tc main_v25)
      = val_main_v30 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) := by
  have e : W5 m ρ c (Proc.devRef .tc main_v25)
      = addf (F := Ideal) (s := S640000x128) (φ := .f32) (W4 m ρ c (Proc.devRef .tc main_v23)) (W4 m ρ c (Proc.devRef .tc main_v24)) :=
    sum_of (W4 m ρ c)
  rw [e, take_q_kept, take_q, take_k, W3_v22_1, q_eq, k_eq, W2_v1, W3_v3,
    guardedTake_eq_gather _ _ (dstRow_inRange _ hin), guardedTake_eq_gather _ _ (srcRow_inRange _ hin)]
  rfl

/-- The edge message the second region leaves is the reference's. -/
theorem msg_eq (hin : ∀ i : S2x640000.Idx, 0 ≤ ((m ((c : Thread nD τ).loc main_arg2)) i).toInt ∧ ((m ((c : Thread nD τ).loc main_arg2)) i).toInt < 50000) :
    W6 m ρ c (Proc.devRef .tc main_v26_0)
      = val_main_v37 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 7).trans ?_
  rw [edge_msg (V5 m ρ) c, V5_arg1, V5_v9, V5_v11, V5_v16,
    show V5 m ρ c main_v25 = _ from qk_eq m ρ c hin, ref_edge_msg]

/-- The edge output the second region leaves is the reference's. -/
theorem edge_eq (hin : ∀ i : S2x640000.Idx, 0 ≤ ((m ((c : Thread nD τ).loc main_arg2)) i).toInt ∧ ((m ((c : Thread nD τ).loc main_arg2)) i).toInt < 50000) :
    W6 m ρ c (Proc.devRef .tc main_v26_1)
      = val_main_v103 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg16)) (m ((c : Thread nD τ).loc main_arg17)) := by
  refine (W6_arr m ρ c 8).trans ?_
  rw [edge_out (V5 m ρ) c, V5_arg1, V5_v9, V5_v11, V5_v16, V5_v20, V5_v21,
    show V5 m ρ c main_v25 = _ from qk_eq m ρ c hin, ref_edge_out]

/-- The scattered messages are the reference's: the same accumulation of the same rows at the same destinations. -/
theorem agg_eq (hin : ∀ i : S2x640000.Idx, 0 ≤ ((m ((c : Thread nD τ).loc main_arg2)) i).toInt ∧ ((m ((c : Thread nD τ).loc main_arg2)) i).toInt < 50000) :
    W7 m ρ c (Proc.devRef .tc main_v29)
      = val_main_v40 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have e : W7 m ρ c (Proc.devRef .tc main_v29)
      = Host.scatterAdd scatter_S50000x128_S640000x1_S640000x128_1_0_0_1
          (broadcastInDim S50000x128 ![] bcast_S_S50000x128 (constant (F := Ideal) S_ .f32 0x00000000#32))
          (broadcastInDim S640000x1 ![0] bcast_S640000_S640000x1_0 (W6 m ρ c (Proc.devRef .tc main_v1)))
          (W6 m ρ c (Proc.devRef .tc main_v26_0)) :=
    agg_of (W6 m ρ c)
  rw [e, W6_v1, msg_eq m ρ c hin]
  rfl

/-- The node output the third region leaves is the reference's. -/
theorem node_eq (hin : ∀ i : S2x640000.Idx, 0 ≤ ((m ((c : Thread nD τ).loc main_arg2)) i).toInt ∧ ((m ((c : Thread nD τ).loc main_arg2)) i).toInt < 50000) :
    W8 m ρ c (Proc.devRef .tc main_v36)
      = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W8_arr m ρ c 9).trans ?_
  rw [node_out (V7 m ρ) c, V7_arg0, V7_arg3, V7_v13, V7_v17, V7_v32, V7_v35, V7_v18, V7_v19,
    show V7 m ρ c main_v29 = _ from agg_eq m ρ c hin, ref_node_out]

/-- THE RESULT: at an edge list of node indices, the kernel program's result buffer ends holding the reference's
    result term of the same arguments. -/
theorem result_eq (hin : ∀ i : S2x640000.Idx, 0 ≤ ((m ((c : Thread nD τ).loc main_arg2)) i).toInt ∧ ((m ((c : Thread nD τ).loc main_arg2)) i).toInt < 50000) :
    W9 m ρ c (Proc.devRef .tc main_v37)
      = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  have e : W9 m ρ c (Proc.devRef .tc main_v37)
      = concatenate S690000x128 0 [⟨S50000x128, W8 m ρ c (Proc.devRef .tc main_v36)⟩,
          ⟨S640000x128, W8 m ρ c (Proc.devRef .tc main_v26_1)⟩] concatenates_S50000x128_S640000x128_S690000x128_d0 :=
    result_of (W8 m ρ c)
  rw [e, W8_v26_1, node_eq m ρ c hin, edge_eq m ρ c hin]
  rfl

end Cert.KernelIdeal.Whole

end
-- ==== Proof.lean ====
/-
  The certificate of a graph layer's kernel against its reference, over the extended reals.

  The layer projects node features into Q and K, gathers them along the edges, forms the edge message
  relu (Q[dst] + K[src] + conn · Weᵀ) · Wcᵀ + bc, layer-norms conn + message per edge, sums the messages into
  their destination nodes, scales that sum by degree, projects it, adds the node features and layer-norms per
  node.  The kernel does the three dense parts in tiled regions (rows are independent, and the tiles cover the
  rows) and the gather and scatter between them on the host; the reference does everything on the host.  At an
  edge list whose entries are node indices — the stated domain — the kernel's guarded row reads are plain
  gathers, every stage of the kernel's program is the reference's stage, and so are the results.  The frames of
  both kernel programs are the generated ones; the reference's frame is its run with the result dropped; the
  idealization rewrote nothing.
-/
import proofs.«425138_j24824910970958_2_alg».proof.Defs
import proofs.«425138_j24824910970958_2_alg».proof.Proof.Gen.Kernel
import proofs.«425138_j24824910970958_2_alg».proof.Proof.Gen.Kernel.Skeleton
import proofs.«425138_j24824910970958_2_alg».proof.Proof.Gen.Kernel.Launch
import proofs.«425138_j24824910970958_2_alg».proof.Proof.Gen.Kernel.Points
import proofs.«425138_j24824910970958_2_alg».proof.Proof.Gen.Kernel.Frame
import proofs.«425138_j24824910970958_2_alg».proof.Proof.Gen.KernelIdeal
import proofs.«425138_j24824910970958_2_alg».proof.Proof.Gen.KernelIdeal.Skeleton
import proofs.«425138_j24824910970958_2_alg».proof.Proof.Gen.KernelIdeal.Launch
import proofs.«425138_j24824910970958_2_alg».proof.Proof.Gen.KernelIdeal.Points
import proofs.«425138_j24824910970958_2_alg».proof.Proof.Gen.KernelIdeal.Frame
import proofs.«425138_j24824910970958_2_alg».proof.Proof.Gen.ReferenceIdeal
import proofs.«425138_j24824910970958_2_alg».proof.Proof.Gen.Pre_finite_inputs
import proofs.«425138_j24824910970958_2_alg».proof.Proof.Gen.ReferenceIdeal.Run
import proofs.«425138_j24824910970958_2_alg».proof.Proof.Gen.ReferenceIdeal.Read
import proofs.«425138_j24824910970958_2_alg».proof.Proof.ResultRun
import proofs.«425138_j24824910970958_2_alg».proof.Proof.PreDecode
import proofs.«425138_j24824910970958_2_alg».proof.Proof.Whole
import Idealize.ShloMosaic.Adequacy
import Idealize.ShloMosaic.Init

noncomputable section

namespace Cert.Proof

open Idealize.ShloMosaic Idealize.SL.Sem

/-- Under the precondition every entry of the kernel program's edge list is a node index. -/
theorem endpoints [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i : Cert.KernelIdeal.S2x640000.Idx, 0 ≤ ((m ((c.tc : Thread Cert.KernelIdeal.nD Cert.KernelIdeal.τ).loc Cert.KernelIdeal.main_arg2)) i).toInt ∧ ((m ((c.tc : Thread Cert.KernelIdeal.nD Cert.KernelIdeal.τ).loc Cert.KernelIdeal.main_arg2)) i).toInt < 50000 :=
  Cert.Pre_finite_inputs.Decode.endpoints_of_pre _ _ _ _ _ _ _ _ _ _ _ _ _ _ _ _ _ _ (hpre c)

/-- Both idealized programs run, from memories agreeing on the arguments, to the same result: the kernel program's
    last boundary holds the reference's result term of the same arguments. -/
theorem algebraic [hK : Cert.KernelIdeal.Facts] [hR : Cert.ReferenceIdeal.Facts] [hPre : Cert.Pre_finite_inputs.Facts] :
    Cert.algebraic_KernelIdeal_ReferenceIdeal := by
  intro m ρ m' ρ' hpre hagree
  refine ⟨fun c => Cert.KernelIdeal.Gen.W9 m ρ c (Proc.devRef .tc Cert.KernelIdeal.main_v37),
    Cert.KernelIdeal.ResultRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17⟩ := hagree c
  rw [Cert.ReferenceIdeal.Read.val_main_v104_eq, e0, e1, e2, e3, e4, e5, e6, e7, e8, e9, e10, e11, e12, e13, e14, e15, e16, e17]
  exact (Cert.KernelIdeal.Whole.result_eq m ρ c (endpoints m hpre c)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
